-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S1000000 32) (main_v33 : IVec S_ 1) : IVec S_ 1 :=
  let main_c_12 : IVec S_ 32 := constantI S_ 32 0#32
  let main_v34 : IVec S1000000 32 := broadcastInDim S1000000 ![] bcast_S_S1000000 main_c_12
  let main_v35 : IVec S1000000 1 := cmpi .sge main_arg1 main_v34
  let main_c_13 : IVec S_ 32 := constantI S_ 32 100000#32
  let main_v36 : IVec S1000000 32 := broadcastInDim S1000000 ![] bcast_S_S1000000 main_c_13
  let main_v37 : IVec S1000000 1 := cmpi .slt main_arg1 main_v36
  let main_v38 : IVec S1000000 1 := andi main_v35 main_v37
  let main_c_14 : IVec S_ 1 := constantI S_ 1 1#1
  let main_v39 : IVec S_ 1 := (fun x v => Host.reduce IntOp.andi x v reducesTo_S1000000_S_d0 h_S_) main_v38 main_c_14
  let main_v40 : IVec S_ 1 := andi main_v33 main_v39
  main_v40

def fn_part1 {F : FTy → Type} [FloatOps F] (main_arg1 : IVec S1000000 32) (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S5000x64 : Shape := ⟨2, ![5000, 64]⟩
abbrev S5000x1 : Shape := ⟨2, ![5000, 1]⟩
abbrev S1x64 : Shape := ⟨2, ![1, 64]⟩
abbrev S1 : Shape := ⟨1, ![1]⟩
abbrev S1x1 : Shape := ⟨2, ![1, 1]⟩
abbrev S1000000x64 : Shape := ⟨2, ![1000000, 64]⟩
abbrev S100000x16 : Shape := ⟨2, ![100000, 16]⟩
abbrev S5000x16 : Shape := ⟨2, ![5000, 16]⟩
abbrev S1x16 : Shape := ⟨2, ![1, 16]⟩
abbrev S1000000x16 : Shape := ⟨2, ![1000000, 16]⟩

abbrev nBuf : Space → Nat
  | .hbm => 133
  | .vmem => 28
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S64x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S_, .f32⟩
  | 10 => ⟨S1000000, .f32⟩
  | 11 => ⟨S_, .f32⟩
  | 12 => ⟨S100000, .f32⟩
  | 13 => ⟨S1000000x1, .i32⟩
  | 14 => ⟨S100000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S_, .f32⟩
  | 31 => ⟨S100000, .f32⟩
  | 32 => ⟨S100000, .f32⟩
  | 33 => ⟨S100000, .f32⟩
  | 34 => ⟨S100000x1, .f32⟩
  | 35 => ⟨S_, .f32⟩
  | 36 => ⟨S100000, .f32⟩
  | 37 => ⟨S100000, .f32⟩
  | 38 => ⟨S100000, .f32⟩
  | 39 => ⟨S100000x1, .f32⟩
  | 40 => ⟨S_, .f32⟩
  | 41 => ⟨S100000, .f32⟩
  | 42 => ⟨S100000, .f32⟩
  | 43 => ⟨S100000, .f32⟩
  | 44 => ⟨S100000x1, .f32⟩
  | 45 => ⟨S100000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1, .i32⟩
  | 55 => ⟨S_, .i32⟩
  | 56 => ⟨S1000000x1, .i32⟩
  | 57 => ⟨S1000000x1, .i1⟩
  | 58 => ⟨S1x1, .i32⟩
  | 59 => ⟨S1000000x1, .i32⟩
  | 60 => ⟨S1000000x1, .i1⟩
  | 61 => ⟨S1000000x1, .i1⟩
  | 62 => ⟨S_, .i1⟩
  | 63 => ⟨S1000000, .i1⟩
  | 64 => ⟨S1000000x64, .f32⟩
  | 65 => ⟨S1000000x64, .i1⟩
  | 66 => ⟨S_, .f32⟩
  | 67 => ⟨S1000000x64, .f32⟩
  | 68 => ⟨S1000000x64, .f32⟩
  | 69 => ⟨S_, .f32⟩
  | 70 => ⟨S100000x64, .f32⟩
  | 71 => ⟨S1000000x1, .i32⟩
  | 72 => ⟨S100000x64, .f32⟩
  | 73 => ⟨S100000x64, .f32⟩
  | 74 => ⟨S100000x64, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1, .i32⟩
  | 84 => ⟨S_, .i32⟩
  | 85 => ⟨S1000000x1, .i32⟩
  | 86 => ⟨S1000000x1, .i1⟩
  | 87 => ⟨S1x1, .i32⟩
  | 88 => ⟨S1000000x1, .i32⟩
  | 89 => ⟨S1000000x1, .i1⟩
  | 90 => ⟨S1000000x1, .i1⟩
  | 91 => ⟨S_, .i1⟩
  | 92 => ⟨S1000000, .i1⟩
  | 93 => ⟨S1000000x64, .f32⟩
  | 94 => ⟨S1000000x64, .i1⟩
  | 95 => ⟨S_, .f32⟩
  | 96 => ⟨S1000000x64, .f32⟩
  | 97 => ⟨S1000000x64, .f32⟩
  | 98 => ⟨S_, .f32⟩
  | 99 => ⟨S100000x64, .f32⟩
  | 100 => ⟨S1000000x1, .i32⟩
  | 101 => ⟨S100000x64, .f32⟩
  | 102 => ⟨S100000x64, .f32⟩
  | 103 => ⟨S100000x16, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1, .i32⟩
  | 113 => ⟨S_, .i32⟩
  | 114 => ⟨S1000000x1, .i32⟩
  | 115 => ⟨S1000000x1, .i1⟩
  | 116 => ⟨S1x1, .i32⟩
  | 117 => ⟨S1000000x1, .i32⟩
  | 118 => ⟨S1000000x1, .i1⟩
  | 119 => ⟨S1000000x1, .i1⟩
  | 120 => ⟨S_, .i1⟩
  | 121 => ⟨S1000000, .i1⟩
  | 122 => ⟨S1000000x16, .f32⟩
  | 123 => ⟨S1000000x16, .i1⟩
  | 124 => ⟨S_, .f32⟩
  | 125 => ⟨S1000000x16, .f32⟩
  | 126 => ⟨S1000000x16, .f32⟩
  | 127 => ⟨S_, .f32⟩
  | _ => ⟨S100000x64, .f32⟩

abbrev hbmTy0_1 (i : Nat) : BufTy := match i % 128 with
  | 0 => ⟨S100000x16, .f32⟩
  | 1 => ⟨S1000000x1, .i32⟩
  | 2 => ⟨S100000x16, .f32⟩
  | 3 => ⟨S100000x16, .f32⟩
  | 4 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x16, .f32⟩
  | .local _ .vmem, ⟨21, _⟩ => ⟨S16, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S5000x1, .f32⟩
  | .local _ .vmem, ⟨26, _⟩ => ⟨S5000x16, .f32⟩
  | .local _ .vmem, ⟨27, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v28 : Ref sig .tc := ⟨.hbm, 68, rfl⟩
abbrev main_cst_8 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v34 : Ref sig .tc := ⟨.hbm, 97, rfl⟩
abbrev main_cst_9 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v40 : Ref sig .tc := ⟨.hbm, 126, rfl⟩
abbrev main_cst_10 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S1000000_S1000000x16_0 : S1000000.BroadcastsInDim S1000000x16 (![0] : Fin 1 → Fin S1000000x16.rank)
  bcast_S_S1000000x16 : S_.BroadcastsInDim S1000000x16 (![] : Fin 0 → Fin S1000000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x16_S5000x16_1_0_0_1_n_n_wf : DotDims.WF S5000x64 S64x16 S5000x16 [1] [0] [0] [1] [] []
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S1100000x64 : Shape := ⟨2, ![1100000, 64]⟩
abbrev S100000x16 : Shape := ⟨2, ![100000, 16]⟩
abbrev S1x16 : Shape := ⟨2, ![1, 16]⟩
abbrev S1000000x1 : Shape := ⟨2, ![1000000, 1]⟩
abbrev S1000000x16 : Shape := ⟨2, ![1000000, 16]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S64x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S100000x64, .f32⟩
  | 10 => ⟨S1x64, .f32⟩
  | 11 => ⟨S100000x64, .f32⟩
  | 12 => ⟨S100000x64, .f32⟩
  | 13 => ⟨S100000x64, .f32⟩
  | 14 => ⟨S100000, .i32⟩
  | 15 => ⟨S1100000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S_, .f32⟩
  | 24 => ⟨S100000, .f32⟩
  | 25 => ⟨S1100000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x64, .f32⟩
  | 33 => ⟨S100000x64, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000x64, .f32⟩
  | 43 => ⟨S_, .f32⟩
  | 44 => ⟨S100000x64, .f32⟩
  | 45 => ⟨S1100000x1, .i32⟩
  | 46 => ⟨S100000x64, .f32⟩
  | 47 => ⟨S_, .f32⟩
  | 48 => ⟨S100000, .f32⟩
  | 49 => ⟨S100000, .f32⟩
  | 50 => ⟨S100000, .f32⟩
  | 51 => ⟨S100000x1, .f32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S100000x64, .f32⟩
  | 59 => ⟨S100000, .i32⟩
  | 60 => ⟨S1100000, .i32⟩
  | 61 => ⟨S1100000, .i32⟩
  | 62 => ⟨S_, .f32⟩
  | 63 => ⟨S1100000, .f32⟩
  | 64 => ⟨S_, .f32⟩
  | 65 => ⟨S100000, .f32⟩
  | 66 => ⟨S1100000x1, .i32⟩
  | 67 => ⟨S100000, .f32⟩
  | 68 => ⟨S_, .f32⟩
  | 69 => ⟨S100000, .f32⟩
  | 70 => ⟨S1100000x1, .i32⟩
  | 71 => ⟨S100000, .f32⟩
  | 72 => ⟨S_, .f32⟩
  | 73 => ⟨S100000, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S_, .i32⟩
  | 80 => ⟨S1100000, .i32⟩
  | 81 => ⟨S1100000, .i1⟩
  | 82 => ⟨S_, .i32⟩
  | 83 => ⟨S1100000, .i32⟩
  | 84 => ⟨S1100000, .i32⟩
  | 85 => ⟨S1100000, .i32⟩
  | 86 => ⟨S1100000x1, .i32⟩
  | 87 => ⟨S1100000x64, .f32⟩
  | 88 => ⟨S_, .f32⟩
  | 89 => ⟨S100000x64, .f32⟩
  | 90 => ⟨S1100000x1, .i32⟩
  | 91 => ⟨S100000x64, .f32⟩
  | 92 => ⟨S_, .f32⟩
  | 93 => ⟨S100000, .f32⟩
  | 94 => ⟨S100000, .f32⟩
  | 95 => ⟨S100000, .f32⟩
  | 96 => ⟨S100000x1, .f32⟩
  | 97 => ⟨S100000x64, .f32⟩
  | 98 => ⟨S100000x64, .f32⟩
  | 99 => ⟨S100000x16, .f32⟩
  | 100 => ⟨S1x16, .f32⟩
  | 101 => ⟨S100000x16, .f32⟩
  | 102 => ⟨S100000x16, .f32⟩
  | 103 => ⟨S_, .f32⟩
  | 104 => ⟨S1000000, .f32⟩
  | 105 => ⟨S_, .f32⟩
  | 106 => ⟨S100000, .f32⟩
  | 107 => ⟨S1000000x1, .i32⟩
  | 108 => ⟨S100000, .f32⟩
  | 109 => ⟨S_, .f32⟩
  | 110 => ⟨S100000, .f32⟩
  | 111 => ⟨S1000000x1, .i32⟩
  | 112 => ⟨S100000, .f32⟩
  | 113 => ⟨S_, .f32⟩
  | 114 => ⟨S100000, .f32⟩
  | 115 => ⟨S100000, .f32⟩
  | 116 => ⟨S100000, .f32⟩
  | 117 => ⟨S100000x1, .f32⟩
  | 118 => ⟨S100000x16, .f32⟩
  | 119 => ⟨S100000x16, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_1 (i : Nat) : BufTy := match i % 128 with
  | 0 => ⟨S1000000x16, .f32⟩
  | 1 => ⟨S_, .f32⟩
  | 2 => ⟨S100000x16, .f32⟩
  | 3 => ⟨S1000000x1, .i32⟩
  | 4 => ⟨S100000x16, .f32⟩
  | 5 => ⟨S_, .f32⟩
  | 6 => ⟨S100000, .f32⟩
  | 7 => ⟨S100000, .f32⟩
  | 8 => ⟨S100000, .f32⟩
  | 9 => ⟨S100000x1, .f32⟩
  | 10 => ⟨S100000x16, .f32⟩
  | 11 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_18 : Ref sig .tc := ⟨.hbm, 120, rfl⟩
abbrev main_v91 : Ref sig .tc := ⟨.hbm, 121, rfl⟩
abbrev main_v92 : Ref sig .tc := ⟨.hbm, 122, rfl⟩
abbrev main_c_19 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_20 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_21 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x16_S100000x16_1_0_0_1_n_n_wf : DotDims.WF S100000x64 S64x16 S100000x16 [1] [0] [0] [1] [] []
  scatter_S100000_S1000000x1_S1000000_n_0_0_1_wf : ScatterDims.WF S100000 S1000000x1 S1000000 [] [0] [0] 1
  gather_S100000x16_S1000000x1_S1000000x16_1_0_n_n_0_1_116_wf : GatherDims.WF S100000x16 S1000000x1 S1000000x16 [1] [0] [] [0] [] 1 ![1, 16]
  scatter_S100000x16_S1000000x1_S1000000x16_1_0_0_1_wf : ScatterDims.WF S100000x16 S1000000x1 S1000000x16 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf

class Facts : Prop extends Facts₀ where

variable [Facts]
-- ==== Proof.Spec.lean ====
/-
  One dense layer of the graph network on whole arrays, as a function of the array index.

  Row r, column j of a layer's output is  act (∑ₖ x(r,k) · w(k,j) + b(j)) · post(r)  — the rows of the input scaled by
  `pre` first when the layer folds the previous layer's receiver normalisation into its input:
  act (∑ₖ (x(r,k) · pre(r)) · w(k,j) + b(j)) · post(r).  The two row scales are [N, 1] columns.
-/
import Idealize.ShloMosaic.PureOps.Ideal
import Idealize.ShloMosaic.Lib.ValueIdx

noncomputable section

namespace GcnSpec

open Idealize.ShloMosaic Idealize.ShloMosaic.ValueIdx

/-- A dense layer without an input row scale. -/
def dense0 (act : EReal → EReal) (D : Nat)
    (X : (⟨2, ![100000, 64]⟩ : Shape).Idx → EReal) (W : (⟨2, ![64, D]⟩ : Shape).Idx → EReal)
    (b : (⟨1, ![D]⟩ : Shape).Idx → EReal) (post : (⟨2, ![100000, 1]⟩ : Shape).Idx → EReal) :
    (⟨2, ![100000, D]⟩ : Shape).Idx → EReal :=
  fun i => act ((∑ k : Fin 64, X (ix2 (i 0) k) * W (ix2 k (i 1))) + b (ix1 (i 1))) * post (ix2 (i 0) (0 : Fin 1))

/-- A dense layer whose input rows are scaled by `pre` before the product. -/
def dense1 (act : EReal → EReal) (D : Nat)
    (X : (⟨2, ![100000, 64]⟩ : Shape).Idx → EReal) (W : (⟨2, ![64, D]⟩ : Shape).Idx → EReal)
    (b : (⟨1, ![D]⟩ : Shape).Idx → EReal) (pre post : (⟨2, ![100000, 1]⟩ : Shape).Idx → EReal) :
    (⟨2, ![100000, D]⟩ : Shape).Idx → EReal :=
  fun i => act ((∑ k : Fin 64, (X (ix2 (i 0) k) * pre (ix2 (i 0) (0 : Fin 1))) * W (ix2 k (i 1))) + b (ix1 (i 1)))
    * post (ix2 (i 0) (0 : Fin 1))

end GcnSpec

end
-- ==== Proof.KTerms.lean ====
/-
  The kernel program's host-side arithmetic on whole arrays, at the extended reals, named piece by piece, and the
  program's value `kernelValue` as their composition with the three dense layers (Spec.lean).

  deg ids          the number of edges whose id is the node: a scatter-add of ones into zeros at the ids.
  scaleCol d       the [N, 1] column 1 / sqrt (max d 1).
  takeRows Y s     row e of the result is row s(e) of Y, after a negative id is shifted by N; a row whose shifted id
                   is outside [0, N − 1] is filled with the not-a-number pattern instead.
  aggregate Y s r  the sum, into row r(e), of the taken rows.
-/
import proofs.«416693_j5531917877789_3_alg».proof.Proof.Gen.KernelIdeal
import proofs.«416693_j5531917877789_3_alg».proof.Proof.Spec

noncomputable section

namespace Cert.KernelIdeal.KV

open Idealize.ShloMosaic Cert.KernelIdeal Cert.KernelIdeal.Facts₀ Cert.KernelIdeal.Facts

/-- A vector of N ones. -/
def onesN : FVec Ideal S100000 .f32 := broadcastInDim S100000 ![] bcast_S_S100000 (constant S_ .f32 0x3F800000#32)

/-- How many edges name each node: ones added into zeros at the ids. -/
def deg (ids : IVec S1000000 32) : FVec Ideal S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 ids)
    (broadcastInDim S1000000 ![] bcast_S_S1000000 (constant S_ .f32 0x3F800000#32))

/-- The normalising column 1 / sqrt (max d 1). -/
def scaleCol (d : FVec Ideal S100000 .f32) : FVec Ideal S100000x1 .f32 :=
  broadcastInDim S100000x1 ![0] bcast_S100000_S100000x1_0 (Host.rsqrt (maximumf d onesN))

/-- The ids as an [E, 1] column, a negative id shifted by N first. -/
def wrapCol (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- Whether each shifted id lies in [0, N − 1]. -/
def inRange (s : IVec S1000000 32) : IVec S1000000 1 :=
  Host.reduce IntOp.andi
    (andi (cmpi .sge (wrapCol s) (broadcastInDim S1000000x1 ![] bcast_S_S1000000x1 (constantI S_ 32 0#32)))
      (cmpi .sle (wrapCol s) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- Rows of a 64-column table taken at the ids. -/
def takeRows64 (Y : FVec Ideal S100000x64 .f32) (s : IVec S1000000 32) : FVec Ideal S1000000x64 .f32 :=
  select (broadcastInDim S1000000x64 ![0] bcast_S1000000_S1000000x64_0 (inRange s))
    (Host.gather gather_S100000x64_S1000000x1_S1000000x64_1_0_n_n_0_1_164 Y (wrapCol s))
    (broadcastInDim S1000000x64 ![] bcast_S_S1000000x64 (constant S_ .f32 0x7FC00000#32))

/-- Rows of a 16-column table taken at the ids. -/
def takeRows16 (Y : FVec Ideal S100000x16 .f32) (s : IVec S1000000 32) : FVec Ideal S1000000x16 .f32 :=
  select (broadcastInDim S1000000x16 ![0] bcast_S1000000_S1000000x16_0 (inRange s))
    (Host.gather gather_S100000x16_S1000000x1_S1000000x16_1_0_n_n_0_1_116 Y (wrapCol s))
    (broadcastInDim S1000000x16 ![] bcast_S_S1000000x16 (constant S_ .f32 0x7FC00000#32))

/-- The taken rows summed into the receivers' rows (64 columns). -/
def aggregate64 (Y : FVec Ideal S100000x64 .f32) (s r : IVec S1000000 32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 r) (takeRows64 Y s)

/-- The taken rows summed into the receivers' rows (16 columns). -/
def aggregate16 (Y : FVec Ideal S100000x16 .f32) (s r : IVec S1000000 32) : FVec Ideal S100000x16 .f32 :=
  Host.scatterAdd scatter_S100000x16_S1000000x1_S1000000x16_1_0_0_1
    (broadcastInDim S100000x16 ![] bcast_S_S100000x16 (constant S_ .f32 0x00000000#32))
    (broadcastInDim S1000000x1 ![0] bcast_S1000000_S1000000x1_0 r) (takeRows16 Y s)

/-- The first layer's output: tanh layer, sender scale counting the self edge. -/
def layer1 (a0 : FVec Ideal S100000x64 .f32) (s : IVec S1000000 32) (W0 : FVec Ideal S64x64 .f32) (b0 : FVec Ideal S64 .f32) :
    FVec Ideal S100000x64 .f32 :=
  GcnSpec.dense0 Ideal.tanh 64 a0 W0 b0 (scaleCol (addf (deg s) onesN))

/-- A layer's messages summed at the receivers, plus the node's own (the self edge). -/
def hidden (Y : FVec Ideal S100000x64 .f32) (s r : IVec S1000000 32) : FVec Ideal S100000x64 .f32 :=
  addf (aggregate64 Y s r) Y

/-- The second layer's output. -/
def layer2 (H : FVec Ideal S100000x64 .f32) (s r : IVec S1000000 32) (W1 : FVec Ideal S64x64 .f32) (b1 : FVec Ideal S64 .f32) :
    FVec Ideal S100000x64 .f32 :=
  GcnSpec.dense1 Ideal.tanh 64 H W1 b1 (scaleCol (addf (deg r) onesN)) (scaleCol (addf (deg s) onesN))

/-- The third layer's output: linear, no self edges in the sender scale. -/
def layer3 (H : FVec Ideal S100000x64 .f32) (s r : IVec S1000000 32) (W2 : FVec Ideal S64x16 .f32) (b2 : FVec Ideal S16 .f32) :
    FVec Ideal S100000x16 .f32 :=
  GcnSpec.dense1 id 16 H W2 b2 (scaleCol (addf (deg r) onesN)) (scaleCol (deg s))

/-- The program's result as one function of its nine arguments. -/
def kernelValue (a0 : FVec Ideal S100000x64 .f32) (s r : IVec S1000000 32) (W0 : FVec Ideal S64x64 .f32) (b0 : FVec Ideal S64 .f32)
    (W1 : FVec Ideal S64x64 .f32) (b1 : FVec Ideal S64 .f32) (W2 : FVec Ideal S64x16 .f32) (b2 : FVec Ideal S16 .f32) :
    FVec Ideal S100000x16 .f32 :=
  mulf (aggregate16 (layer3 (hidden (layer2 (hidden (layer1 a0 s W0 b0) s r) s r W1 b1) s r) s r W2 b2) s r)
    (broadcastInDim S100000x16 ![0, 1] bcast_S100000x1_S100000x16_0_1 (scaleCol (deg r)))

end Cert.KernelIdeal.KV

end
-- ==== Proof.KCalls.lean ====
/-
  The three calls of the row-taking function, inlined in @main as stretches of host operations over typed references,
  restated as plain operations on the same buffers with the same functions: a typed reference's transport of contents
  between a buffer's own type and the value's type is the identity at these literal buffers, so each stretch IS its
  plain restatement.  Reading a buffer after a plain stretch then involves no transport.
-/
import proofs.«416693_j5531917877789_3_alg».proof.Proof.Gen.KernelIdeal.Launch
import Idealize.ShloMosaic.Lib.StableHlo.Run
import Idealize.ShloMosaic.PureOps.Ideal

set_option maxRecDepth 16384

noncomputable section

namespace Cert.KernelIdeal.KCalls

open Idealize.ShloMosaic Idealize.ShloMosaic.TcCoe Idealize.SL.Sem Cert.KernelIdeal
open Cert.KernelIdeal.Facts₀ Cert.KernelIdeal.Facts

/-- The operations of call 0 of the row-taking function, as plain operations. -/
def takeOps0 : List (HloOp τ sig (Elt Ideal)) :=
  [ StableHlo.nullary main_call0_c (constantI S_ 32 0#32 : (⟨S_, .i32⟩ : BufTy).Contents (Elt Ideal)),
    StableHlo.unary main_call0_c main_call0_v0 ((broadcastInDim S1000000 ![] bcast_S_S1000000) : (⟨S_, .i32⟩ : BufTy).Contents (Elt Ideal) → (⟨S1000000, .i32⟩ : BufTy).Contents (Elt Ideal)),
    StableHlo.binary main_arg1 main_call0_v0 main_call0_v1 ((cmpi .slt) : (⟨S1000000, .i32⟩ : BufTy).Contents (Elt Ideal) → (⟨S1000000, .i32⟩ : BufTy).Contents (Elt Ideal) → (⟨S1000000, .i1⟩ : BufTy).Contents (Elt Ideal)),
    StableHlo.nullary main_call0_c_0 (constantI S_ 32 100000#32 : (⟨S_, .i32⟩ : BufTy).Contents (Elt Ideal)),
    StableHlo.unary main_call0_c_0 main_call0_v2 ((broadcastInDim S1000000 ![] bcast_S_S1000000) : (⟨S_, .i32⟩ : BufTy).Contents (Elt Ideal) → (⟨S1000000, .i32⟩ : BufTy).Contents (Elt Ideal)),
    StableHlo.binary main_arg1 main_call0_v2 main_call0_v3 ((addi) : (⟨S1000000, .i32⟩ : BufTy).Contents (Elt Ideal) → (⟨S1000000, .i32⟩ : BufTy).Contents (Elt Ideal) → (⟨S1000000, .i32⟩ : BufTy).Contents (Elt Ideal)),
    StableHlo.ternary main_call0_v1 main_call0_v3 main_arg1 main_call0_v4 ((select) : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)),
    StableHlo.unary main_call0_v4 main_call0_v5 ((broadcastInDim S1000000x1 ![0] bcast_S1000000_S1000000x1_0) : (⟨S1000000, .i32⟩ : BufTy).Contents (Elt Ideal) → (⟨S1000000x1, .i32⟩ : BufTy).Contents (Elt Ideal)),
    StableHlo.nullary main_call0_c_1 (constantI S1 32 99999#32 : (⟨S1, .i32⟩ : BufTy).Contents (Elt Ideal)),
    StableHlo.nullary main_call0_c_2 (constantI S_ 32 0#32 : (⟨S_, .i32⟩ : BufTy).Contents (Elt Ideal)),
    StableHlo.unary main_call0_c_2 main_call0_v6 ((broadcastInDim S1000000x1 ![] bcast_S_S1000000x1) : (⟨S_, .i32⟩ : BufTy).Contents (Elt Ideal) → (⟨S1000000x1, .i32⟩ : BufTy).Contents (Elt Ideal)),
    StableHlo.binary main_call0_v5 main_call0_v6 main_call0_v7 ((cmpi .sge) : (⟨S1000000x1, .i32⟩ : BufTy).Contents (Elt Ideal) → (⟨S1000000x1, .i32⟩ : BufTy).Contents (Elt Ideal) → (⟨S1000000x1, .i1⟩ : BufTy).Contents (Elt Ideal)),
    StableHlo.unary main_call0_c_1 main_call0_v8 ((broadcastInDim S1x1 ![1] bcast_S1_S1x1_1) : (⟨S1, .i32⟩ : BufTy).Contents (Elt Ideal) → (⟨S1x1, .i32⟩ : BufTy).Contents (Elt Ideal)),
    StableHlo.unary main_call0_v8 main_call0_v9 ((broadcastInDim S1000000x1 ![0, 1] bcast_S1x1_S1000000x1_0_1) : (⟨S1x1, .i32⟩ : BufTy).Contents (Elt Ideal) → (⟨S1000000x1, .i32⟩ : BufTy).Contents (Elt Ideal)),
    StableHlo.binary main_call0_v5 main_call0_v9 main_call0_v10 ((cmpi .sle) : (⟨S1000000x1, .i32⟩ : BufTy).Contents (Elt Ideal) → (⟨S1000000x1, .i32⟩ : BufTy).Contents (Elt Ideal) → (⟨S1000000x1, .i1⟩ : BufTy).Contents (Elt Ideal)),
    StableHlo.binary main_call0_v7 main_call0_v10 main_call0_v11 ((andi) : (⟨S1000000x1, .i1⟩ : BufTy).Contents (Elt Ideal) → (⟨S1000000x1, .i1⟩ : BufTy).Contents (Elt Ideal) → (⟨S1000000x1, .i1⟩ : BufTy).Contents (Elt Ideal)),
    StableHlo.nullary main_call0_c_3 (constantI S_ 1 1#1 : (⟨S_, .i1⟩ : BufTy).Contents (Elt Ideal)),
    StableHlo.binary main_call0_v11 main_call0_c_3 main_call0_v12 ((fun x v => Host.reduce IntOp.andi x v reducesTo_S1000000x1_S1000000_d1 h_S_) : (⟨S1000000x1, .i1⟩ : BufTy).Contents (Elt Ideal) → (⟨S_, .i1⟩ : BufTy).Contents (Elt Ideal) → (⟨S1000000, .i1⟩ : BufTy).Contents (Elt Ideal)),
    StableHlo.binary main_v27 main_call0_v5 main_call0_v13 ((fun x i => Host.gather gather_S100000x64_S1000000x1_S1000000x64_1_0_n_n_0_1_164 x i) : (⟨S100000x64, .f32⟩ : BufTy).Contents (Elt Ideal) → (⟨S1000000x1, .i32⟩ : BufTy).Contents (Elt Ideal) → (⟨S1000000x64, .f32⟩ : BufTy).Contents (Elt Ideal)),
    StableHlo.unary main_call0_v12 main_call0_v14 ((broadcastInDim S1000000x64 ![0] bcast_S1000000_S1000000x64_0) : (⟨S1000000, .i1⟩ : BufTy).Contents (Elt Ideal) → (⟨S1000000x64, .i1⟩ : BufTy).Contents (Elt Ideal)),
    StableHlo.nullary main_call0_cst (constant (F := Ideal) S_ .f32 0x7FC00000#32),
    StableHlo.unary main_call0_cst main_call0_v15 ((broadcastInDim S1000000x64 ![] bcast_S_S1000000x64) : (⟨S_, .f32⟩ : BufTy).Contents (Elt Ideal) → (⟨S1000000x64, .f32⟩ : BufTy).Contents (Elt Ideal)),
    StableHlo.ternary main_call0_v14 main_call0_v13 main_call0_v15 main_v28 ((select) : (⟨S1000000x64, .i1⟩ : BufTy).Contents (Elt Ideal) → (⟨S1000000x64, .f32⟩ : BufTy).Contents (Elt Ideal) → (⟨S1000000x64, .f32⟩ : BufTy).Contents (Elt Ideal) → (⟨S1000000x64, .f32⟩ : BufTy).Contents (Elt Ideal)) ]

attribute [local irreducible] Host.reduce Host.gather broadcastInDim select cmpi addi andi constant constantI in
theorem hostOps1_eq : (Gen.hostOps1 : List (HloOp τ sig (Elt Ideal))) = takeOps0 := rfl

/-- The operations of call 1 of the row-taking function, as plain operations. -/
def takeOps1 : List (HloOp τ sig (Elt Ideal)) :=
  [ StableHlo.nullary main_call1_c (constantI S_ 32 0#32 : (⟨S_, .i32⟩ : BufTy).Contents (Elt Ideal)),
    StableHlo.unary main_call1_c main_call1_v0 ((broadcastInDim S1000000 ![] bcast_S_S1000000) : (⟨S_, .i32⟩ : BufTy).Contents (Elt Ideal) → (⟨S1000000, .i32⟩ : BufTy).Contents (Elt Ideal)),
    StableHlo.binary main_arg1 main_call1_v0 main_call1_v1 ((cmpi .slt) : (⟨S1000000, .i32⟩ : BufTy).Contents (Elt Ideal) → (⟨S1000000, .i32⟩ : BufTy).Contents (Elt Ideal) → (⟨S1000000, .i1⟩ : BufTy).Contents (Elt Ideal)),
    StableHlo.nullary main_call1_c_0 (constantI S_ 32 100000#32 : (⟨S_, .i32⟩ : BufTy).Contents (Elt Ideal)),
    StableHlo.unary main_call1_c_0 main_call1_v2 ((broadcastInDim S1000000 ![] bcast_S_S1000000) : (⟨S_, .i32⟩ : BufTy).Contents (Elt Ideal) → (⟨S1000000, .i32⟩ : BufTy).Contents (Elt Ideal)),
    StableHlo.binary main_arg1 main_call1_v2 main_call1_v3 ((addi) : (⟨S1000000, .i32⟩ : BufTy).Contents (Elt Ideal) → (⟨S1000000, .i32⟩ : BufTy).Contents (Elt Ideal) → (⟨S1000000, .i32⟩ : BufTy).Contents (Elt Ideal)),
    StableHlo.ternary main_call1_v1 main_call1_v3 main_arg1 main_call1_v4 ((select) : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)),
    StableHlo.unary main_call1_v4 main_call1_v5 ((broadcastInDim S1000000x1 ![0] bcast_S1000000_S1000000x1_0) : (⟨S1000000, .i32⟩ : BufTy).Contents (Elt Ideal) → (⟨S1000000x1, .i32⟩ : BufTy).Contents (Elt Ideal)),
    StableHlo.nullary main_call1_c_1 (constantI S1 32 99999#32 : (⟨S1, .i32⟩ : BufTy).Contents (Elt Ideal)),
    StableHlo.nullary main_call1_c_2 (constantI S_ 32 0#32 : (⟨S_, .i32⟩ : BufTy).Contents (Elt Ideal)),
    StableHlo.unary main_call1_c_2 main_call1_v6 ((broadcastInDim S1000000x1 ![] bcast_S_S1000000x1) : (⟨S_, .i32⟩ : BufTy).Contents (Elt Ideal) → (⟨S1000000x1, .i32⟩ : BufTy).Contents (Elt Ideal)),
    StableHlo.binary main_call1_v5 main_call1_v6 main_call1_v7 ((cmpi .sge) : (⟨S1000000x1, .i32⟩ : BufTy).Contents (Elt Ideal) → (⟨S1000000x1, .i32⟩ : BufTy).Contents (Elt Ideal) → (⟨S1000000x1, .i1⟩ : BufTy).Contents (Elt Ideal)),
    StableHlo.unary main_call1_c_1 main_call1_v8 ((broadcastInDim S1x1 ![1] bcast_S1_S1x1_1) : (⟨S1, .i32⟩ : BufTy).Contents (Elt Ideal) → (⟨S1x1, .i32⟩ : BufTy).Contents (Elt Ideal)),
    StableHlo.unary main_call1_v8 main_call1_v9 ((broadcastInDim S1000000x1 ![0, 1] bcast_S1x1_S1000000x1_0_1) : (⟨S1x1, .i32⟩ : BufTy).Contents (Elt Ideal) → (⟨S1000000x1, .i32⟩ : BufTy).Contents (Elt Ideal)),
    StableHlo.binary main_call1_v5 main_call1_v9 main_call1_v10 ((cmpi .sle) : (⟨S1000000x1, .i32⟩ : BufTy).Contents (Elt Ideal) → (⟨S1000000x1, .i32⟩ : BufTy).Contents (Elt Ideal) → (⟨S1000000x1, .i1⟩ : BufTy).Contents (Elt Ideal)),
    StableHlo.binary main_call1_v7 main_call1_v10 main_call1_v11 ((andi) : (⟨S1000000x1, .i1⟩ : BufTy).Contents (Elt Ideal) → (⟨S1000000x1, .i1⟩ : BufTy).Contents (Elt Ideal) → (⟨S1000000x1, .i1⟩ : BufTy).Contents (Elt Ideal)),
    StableHlo.nullary main_call1_c_3 (constantI S_ 1 1#1 : (⟨S_, .i1⟩ : BufTy).Contents (Elt Ideal)),
    StableHlo.binary main_call1_v11 main_call1_c_3 main_call1_v12 ((fun x v => Host.reduce IntOp.andi x v reducesTo_S1000000x1_S1000000_d1 h_S_) : (⟨S1000000x1, .i1⟩ : BufTy).Contents (Elt Ideal) → (⟨S_, .i1⟩ : BufTy).Contents (Elt Ideal) → (⟨S1000000, .i1⟩ : BufTy).Contents (Elt Ideal)),
    StableHlo.binary main_v33 main_call1_v5 main_call1_v13 ((fun x i => Host.gather gather_S100000x64_S1000000x1_S1000000x64_1_0_n_n_0_1_164 x i) : (⟨S100000x64, .f32⟩ : BufTy).Contents (Elt Ideal) → (⟨S1000000x1, .i32⟩ : BufTy).Contents (Elt Ideal) → (⟨S1000000x64, .f32⟩ : BufTy).Contents (Elt Ideal)),
    StableHlo.unary main_call1_v12 main_call1_v14 ((broadcastInDim S1000000x64 ![0] bcast_S1000000_S1000000x64_0) : (⟨S1000000, .i1⟩ : BufTy).Contents (Elt Ideal) → (⟨S1000000x64, .i1⟩ : BufTy).Contents (Elt Ideal)),
    StableHlo.nullary main_call1_cst (constant (F := Ideal) S_ .f32 0x7FC00000#32),
    StableHlo.unary main_call1_cst main_call1_v15 ((broadcastInDim S1000000x64 ![] bcast_S_S1000000x64) : (⟨S_, .f32⟩ : BufTy).Contents (Elt Ideal) → (⟨S1000000x64, .f32⟩ : BufTy).Contents (Elt Ideal)),
    StableHlo.ternary main_call1_v14 main_call1_v13 main_call1_v15 main_v34 ((select) : (⟨S1000000x64, .i1⟩ : BufTy).Contents (Elt Ideal) → (⟨S1000000x64, .f32⟩ : BufTy).Contents (Elt Ideal) → (⟨S1000000x64, .f32⟩ : BufTy).Contents (Elt Ideal) → (⟨S1000000x64, .f32⟩ : BufTy).Contents (Elt Ideal)) ]

attribute [local irreducible] Host.reduce Host.gather broadcastInDim select cmpi addi andi constant constantI in
theorem hostOps2_eq : (Gen.hostOps2 : List (HloOp τ sig (Elt Ideal))) = takeOps1 := rfl

/-- The operations of call 2 of the row-taking function, as plain operations. -/
def takeOps2 : List (HloOp τ sig (Elt Ideal)) :=
  [ StableHlo.nullary main_call2_c (constantI S_ 32 0#32 : (⟨S_, .i32⟩ : BufTy).Contents (Elt Ideal)),
    StableHlo.unary main_call2_c main_call2_v0 ((broadcastInDim S1000000 ![] bcast_S_S1000000) : (⟨S_, .i32⟩ : BufTy).Contents (Elt Ideal) → (⟨S1000000, .i32⟩ : BufTy).Contents (Elt Ideal)),
    StableHlo.binary main_arg1 main_call2_v0 main_call2_v1 ((cmpi .slt) : (⟨S1000000, .i32⟩ : BufTy).Contents (Elt Ideal) → (⟨S1000000, .i32⟩ : BufTy).Contents (Elt Ideal) → (⟨S1000000, .i1⟩ : BufTy).Contents (Elt Ideal)),
    StableHlo.nullary main_call2_c_0 (constantI S_ 32 100000#32 : (⟨S_, .i32⟩ : BufTy).Contents (Elt Ideal)),
    StableHlo.unary main_call2_c_0 main_call2_v2 ((broadcastInDim S1000000 ![] bcast_S_S1000000) : (⟨S_, .i32⟩ : BufTy).Contents (Elt Ideal) → (⟨S1000000, .i32⟩ : BufTy).Contents (Elt Ideal)),
    StableHlo.binary main_arg1 main_call2_v2 main_call2_v3 ((addi) : (⟨S1000000, .i32⟩ : BufTy).Contents (Elt Ideal) → (⟨S1000000, .i32⟩ : BufTy).Contents (Elt Ideal) → (⟨S1000000, .i32⟩ : BufTy).Contents (Elt Ideal)),
    StableHlo.ternary main_call2_v1 main_call2_v3 main_arg1 main_call2_v4 ((select) : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)),
    StableHlo.unary main_call2_v4 main_call2_v5 ((broadcastInDim S1000000x1 ![0] bcast_S1000000_S1000000x1_0) : (⟨S1000000, .i32⟩ : BufTy).Contents (Elt Ideal) → (⟨S1000000x1, .i32⟩ : BufTy).Contents (Elt Ideal)),
    StableHlo.nullary main_call2_c_1 (constantI S1 32 99999#32 : (⟨S1, .i32⟩ : BufTy).Contents (Elt Ideal)),
    StableHlo.nullary main_call2_c_2 (constantI S_ 32 0#32 : (⟨S_, .i32⟩ : BufTy).Contents (Elt Ideal)),
    StableHlo.unary main_call2_c_2 main_call2_v6 ((broadcastInDim S1000000x1 ![] bcast_S_S1000000x1) : (⟨S_, .i32⟩ : BufTy).Contents (Elt Ideal) → (⟨S1000000x1, .i32⟩ : BufTy).Contents (Elt Ideal)),
    StableHlo.binary main_call2_v5 main_call2_v6 main_call2_v7 ((cmpi .sge) : (⟨S1000000x1, .i32⟩ : BufTy).Contents (Elt Ideal) → (⟨S1000000x1, .i32⟩ : BufTy).Contents (Elt Ideal) → (⟨S1000000x1, .i1⟩ : BufTy).Contents (Elt Ideal)),
    StableHlo.unary main_call2_c_1 main_call2_v8 ((broadcastInDim S1x1 ![1] bcast_S1_S1x1_1) : (⟨S1, .i32⟩ : BufTy).Contents (Elt Ideal) → (⟨S1x1, .i32⟩ : BufTy).Contents (Elt Ideal)),
    StableHlo.unary main_call2_v8 main_call2_v9 ((broadcastInDim S1000000x1 ![0, 1] bcast_S1x1_S1000000x1_0_1) : (⟨S1x1, .i32⟩ : BufTy).Contents (Elt Ideal) → (⟨S1000000x1, .i32⟩ : BufTy).Contents (Elt Ideal)),
    StableHlo.binary main_call2_v5 main_call2_v9 main_call2_v10 ((cmpi .sle) : (⟨S1000000x1, .i32⟩ : BufTy).Contents (Elt Ideal) → (⟨S1000000x1, .i32⟩ : BufTy).Contents (Elt Ideal) → (⟨S1000000x1, .i1⟩ : BufTy).Contents (Elt Ideal)),
    StableHlo.binary main_call2_v7 main_call2_v10 main_call2_v11 ((andi) : (⟨S1000000x1, .i1⟩ : BufTy).Contents (Elt Ideal) → (⟨S1000000x1, .i1⟩ : BufTy).Contents (Elt Ideal) → (⟨S1000000x1, .i1⟩ : BufTy).Contents (Elt Ideal)),
    StableHlo.nullary main_call2_c_3 (constantI S_ 1 1#1 : (⟨S_, .i1⟩ : BufTy).Contents (Elt Ideal)),
    StableHlo.binary main_call2_v11 main_call2_c_3 main_call2_v12 ((fun x v => Host.reduce IntOp.andi x v reducesTo_S1000000x1_S1000000_d1 h_S_) : (⟨S1000000x1, .i1⟩ : BufTy).Contents (Elt Ideal) → (⟨S_, .i1⟩ : BufTy).Contents (Elt Ideal) → (⟨S1000000, .i1⟩ : BufTy).Contents (Elt Ideal)),
    StableHlo.binary main_v39 main_call2_v5 main_call2_v13 ((fun x i => Host.gather gather_S100000x16_S1000000x1_S1000000x16_1_0_n_n_0_1_116 x i) : (⟨S100000x16, .f32⟩ : BufTy).Contents (Elt Ideal) → (⟨S1000000x1, .i32⟩ : BufTy).Contents (Elt Ideal) → (⟨S1000000x16, .f32⟩ : BufTy).Contents (Elt Ideal)),
    StableHlo.unary main_call2_v12 main_call2_v14 ((broadcastInDim S1000000x16 ![0] bcast_S1000000_S1000000x16_0) : (⟨S1000000, .i1⟩ : BufTy).Contents (Elt Ideal) → (⟨S1000000x16, .i1⟩ : BufTy).Contents (Elt Ideal)),
    StableHlo.nullary main_call2_cst (constant (F := Ideal) S_ .f32 0x7FC00000#32),
    StableHlo.unary main_call2_cst main_call2_v15 ((broadcastInDim S1000000x16 ![] bcast_S_S1000000x16) : (⟨S_, .f32⟩ : BufTy).Contents (Elt Ideal) → (⟨S1000000x16, .f32⟩ : BufTy).Contents (Elt Ideal)),
    StableHlo.ternary main_call2_v14 main_call2_v13 main_call2_v15 main_v40 ((select) : (⟨S1000000x16, .i1⟩ : BufTy).Contents (Elt Ideal) → (⟨S1000000x16, .f32⟩ : BufTy).Contents (Elt Ideal) → (⟨S1000000x16, .f32⟩ : BufTy).Contents (Elt Ideal) → (⟨S1000000x16, .f32⟩ : BufTy).Contents (Elt Ideal)) ]

attribute [local irreducible] Host.reduce Host.gather broadcastInDim select cmpi addi andi constant constantI in
theorem hostOps3_eq : (Gen.hostOps3 : List (HloOp τ sig (Elt Ideal))) = takeOps2 := rfl

end Cert.KernelIdeal.KCalls

end
-- ==== Proof.Region0.lean ====
/-
  The array pallas_call 0 leaves in its output, as one function of the arrays it reads: every block of 5000 rows the
  grid writes back is the dense layer (Spec.lean) of the same rows of the input, and the 20 blocks tile the 100000 rows.
-/
import proofs.«416693_j5531917877789_3_alg».proof.Proof.Gen.KernelIdeal.Frame
import proofs.«416693_j5531917877789_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The contraction's operand indices, axis by axis -/

/-- The left operand's row is the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column is the summation index. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand's row is the summation index. -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right operand's column is the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix product into a zero accumulator, at row `p` and column `q`: the sum over the 64 shared coordinates. -/
theorem matmul_at (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  show FloatOps.matmul dot_S5000x64_S64x64_S5000x64_1_0_0_1_n_n none x w (constant (F := Ideal) S5000x64 .f32 0x00000000#32) (ix2 p q) = _
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-! ## The two broadcasts -/

/-- The bias, a vector of 64, made a row and repeated down the 5000 rows, reads at `(p, q)` the bias at `q`. -/
theorem bias_at (b : Vec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-- A column of 5000 repeated across the 64 columns reads at `(p, q)` the column at `p`. -/
theorem col_at (v : Vec Ideal S5000x1 .f32) (p : Fin 5000) (q : Fin 64) :
    broadcastTo S5000x64 (shapeCast S5000x1 v shapeCasts_S5000x1_S5000x1) broadcasts_S5000x1_S5000x64 (ix2 p q)
      = v (ix2 p (0 : Fin 1)) := by
  rw [shapeCast_self]
  refine broadcastTo_apply v broadcasts_S5000x1_S5000x64 (ix2 p q) (ix2 p (0 : Fin 1)) fun ax => ?_
  match ax with
  | ⟨0, _⟩ => rfl
  | ⟨1, _⟩ => rfl

/-! ## The body's arithmetic at an index -/

/-- The hyperbolic tangent of a vector, at an index. -/
theorem tanh_at {s : Shape} {φ : FTy} (a : FVec Ideal s φ) (i : s.Idx) : tanh a i = Ideal.tanh (a i) := rfl

/-- The body's result at row `p`, column `q` of its block: the activation of the row's product with the weights plus the
    bias, scaled by the row's factor. -/
theorem pay_at (x0 : Vec Ideal S5000x64 .f32) (W : Vec Ideal S64x64 .f32) (b : Vec Ideal S64 .f32)
    (post : Vec Ideal S5000x1 .f32) (p : Fin 5000) (q : Fin 64) :
    k0_pay1 x0 W b post (ix2 p q)
      = Ideal.tanh ((∑ k : Fin 64, x0 (ix2 p k) * W (ix2 k q)) + b (ix1 q)) * post (ix2 p (0 : Fin 1)) := by
  unfold k0_pay1
  rw [mulf_apply, col_at, tanh_at, addf_apply, bias_at, matmul_at]
  rfl

/-- The body's result at `(p, q)` of a block is the dense layer at `(r, q)` of whole arrays, as soon as the block's row `p`
    is the arrays' row `r` and the weights and the bias are the arrays' own. -/
theorem pay_eq_dense (x0 : Vec Ideal S5000x64 .f32) (W' : Vec Ideal S64x64 .f32) (b' : Vec Ideal S64 .f32)
    (post' : Vec Ideal S5000x1 .f32) (X : S100000x64.Idx → EReal) (W : S64x64.Idx → EReal) (b : S64.Idx → EReal)
    (post : S100000x1.Idx → EReal) (p : Fin 5000) (q : Fin 64) (r : Fin 100000)
    (h0 : ∀ k : Fin 64, x0 (ix2 p k) = X (ix2 r k)) (h1 : ∀ k : Fin 64, W' (ix2 k q) = W (ix2 k q))
    (h2 : b' (ix1 q) = b (ix1 q)) (h3 : post' (ix2 p (0 : Fin 1)) = post (ix2 r (0 : Fin 1))) :
    k0_pay1 x0 W' b' post' (ix2 p q) = GcnSpec.dense0 Ideal.tanh 64 X W b post (ix2 r q) := by
  have hsum : (∑ k : Fin 64, x0 (ix2 p k) * W' (ix2 k q)) = ∑ k : Fin 64, X (ix2 r k) * W (ix2 k q) :=
    Finset.sum_congr rfl fun k _ => by rw [h0 k, h1 k]
  rw [pay_at, hsum, h2, h3]
  rfl

variable (V : (c : Dev nD) → (b : Ref sig .tc) → Buf (Elt Ideal) ((c : Thread nD τ).loc b))

/-! ## Where each window's block sits -/

theorem off2_zero : (![0, 0] : Fin 2 → Nat) = fun _ => 0 := funext fun a => by fin_cases a <;> rfl
theorem off1_zero : (![0] : Fin 1 → Nat) = fun _ => 0 := funext fun a => by fin_cases a <;> rfl

/-- The printed index maps over the grid: the input rows and the row scale move with the output's row block, which is
    the point's number; the weights and the bias stay at block 0, as does every column block. -/
theorem idx_facts : ∀ t : Fin cfg0.N, win0_0.index t (0 : Fin 2) = win0_4.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = win0_4.index t (0 : Fin 2)
    ∧ win0_3.index t (1 : Fin 2) = 0
    ∧ win0_4.index t (0 : Fin 2) = t.val
    ∧ win0_4.index t (1 : Fin 2) = 0 :=
  (by decide +kernel : ∀ t : Fin grid0.N, _)

/-- What point `t` writes back is block `t` of the dense layer of the arrays the region reads. -/
theorem flushed_eq (c : Dev nD) (t : Fin cfg0.N) :
    (Gen.dat0 (F := Ideal) V c).flushed 4 t
      = ((cfg0.win 4).blk t).view.read (Elt Ideal)
          (GcnSpec.dense0 Ideal.tanh 64 (V c main_arg0) (V c main_arg3) (V c main_arg4) (V c main_v14)) := by
  show (cfg0.win 4).cut (grid0.coords t) ((Gen.dat0 V c).after 4 t) = _
  rw [Gen.after0_4]
  unfold Gen.out0_4
  rw [View.canon_unit_zero off2_zero]
  simp only [View.ld_unit_zero (S := S5000x64) off2_zero, View.ld_unit_zero (S := S64x64) off2_zero,
    View.ld_unit_zero (S := S64) off1_zero, View.ld_unit_zero (S := S5000x1) off2_zero]
  obtain ⟨e00, e01, e10, e11, e20, e30, e31, e40, e41⟩ := idx_facts t
  have ht : t.val < 20 := Nat.lt_of_lt_of_eq t.isLt (N_0 : cfg0.N = 20)
  funext j
  obtain ⟨p, q, rfl⟩ : ∃ (p : Fin 5000) (q : Fin 64), j = ix2 p q := ⟨j 0, j 1, eq_ix2 j⟩
  obtain ⟨r, hr⟩ : ∃ r : Fin 100000, r.val = t.val * 5000 + p.val :=
    ⟨⟨t.val * 5000 + p.val, by have := p.isLt; omega⟩, rfl⟩
  show k0_pay1 (Gen.iblk0 V c 0 t) (Gen.iblk0 V c 1 t) (Gen.iblk0 V c 2 t) (Gen.iblk0 V c 3 t) (ix2 p q)
    = GcnSpec.dense0 Ideal.tanh 64 (V c main_arg0) (V c main_arg3) (V c main_arg4) (V c main_v14)
        (((cfg0.win 4).blk t).view.emb (ix2 p q))
  have hi : ((cfg0.win 4).blk t).view.emb (ix2 p q) = ix2 r q := by
    funext a; apply Fin.ext
    match a with
    | ⟨0, _⟩ => show win0_4.index t (0 : Fin 2) * 5000 + 1 * p.val = r.val; omega
    | ⟨1, _⟩ => show win0_4.index t (1 : Fin 2) * 64 + 1 * q.val = q.val; omega
  rw [hi]
  have h0 : ∀ k : Fin 64, Gen.iblk0 V c 0 t (ix2 p k) = V c main_arg0 (ix2 r k) := fun k => by
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  have h1 : ∀ k : Fin 64, Gen.iblk0 V c 1 t (ix2 k q) = V c main_arg3 (ix2 k q) := fun k => by
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  have h2 : Gen.iblk0 V c 2 t (ix1 q) = V c main_arg4 (ix1 q) := by
    show V c main_arg4 (((cfg0.win 2).blk t).view.emb (ix1 q)) = V c main_arg4 (ix1 q)
    refine congrArg (V c main_arg4) ?_
    funext a; apply Fin.ext
    match a with
    | ⟨0, _⟩ => show win0_2.index t (0 : Fin 1) * 64 + 1 * q.val = q.val; omega
  have h3 : Gen.iblk0 V c 3 t (ix2 p (0 : Fin 1)) = V c main_v14 (ix2 r (0 : Fin 1)) := by
    show V c main_v14 (((cfg0.win 3).blk t).view.emb (ix2 p (0 : Fin 1))) = V c main_v14 (ix2 r (0 : Fin 1))
    refine congrArg (V c main_v14) ?_
    funext a; apply Fin.ext
    match a with
    | ⟨0, _⟩ => show win0_3.index t (0 : Fin 2) * 5000 + 1 * p.val = r.val; omega
    | ⟨1, _⟩ => show win0_3.index t (1 : Fin 2) * 1 + 1 * 0 = 0; omega
  exact pay_eq_dense (Gen.iblk0 V c 0 t) (Gen.iblk0 V c 1 t) (Gen.iblk0 V c 2 t) (Gen.iblk0 V c 3 t)
    (V c main_arg0) (V c main_arg3) (V c main_arg4) (V c main_v14) p q r h0 h1 h2 h3

/-! ## The twenty blocks tile the array -/

/-- An index of the array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v27).slice (win0_4.rect t)).set ↔ _
  rw [View.set_slice_whole, Rect.mem_set_unit]
  exact Iff.rfl

/-- Row `r` of the array is in the block of point `r / 5000`, whose columns are all 64. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-! ## The array after the twenty write-backs -/

theorem final0 (c : Dev nD) :
    (Gen.dat0 (F := Ideal) V c).arrAt 4 cfg0.N
      = GcnSpec.dense0 Ideal.tanh 64 (V c main_arg0) (V c main_arg3) (V c main_arg4) (V c main_v14) :=
  (Gen.dat0 (F := Ideal) V c).arrAt_eq_of_cover 4
    (GcnSpec.dense0 Ideal.tanh 64 (V c main_arg0) (V c main_arg3) (V c main_arg4) (V c main_v14))
    (fun t _ => flushed_eq V c t) cover

end Cert.KernelIdeal.Region0

end
-- ==== Proof.Region1.lean ====
/-
  The array pallas_call 1 leaves in its output, as one function of the arrays it reads: every block of 5000 rows the
  grid writes back is the dense layer (Spec.lean) of the same rows of the input, and the 20 blocks tile the 100000 rows.
-/
import proofs.«416693_j5531917877789_3_alg».proof.Proof.Gen.KernelIdeal.Frame
import proofs.«416693_j5531917877789_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat Cfg Window)

/-! ## The body's arithmetic at an index -/

/-- A [5000, 1] column broadcast along the 64 lanes reads, at (p, q), the column at row p. -/
theorem column_apply (v : Vec Ideal S5000x1 .f32) (p : Fin 5000) (q : Fin 64) :
    broadcastTo S5000x64 (shapeCast S5000x1 v shapeCasts_S5000x1_S5000x1) broadcasts_S5000x1_S5000x64 (ix2 p q)
      = v (ix2 p (0 : Fin 1)) := by
  rw [shapeCast_self]
  refine broadcastTo_apply v broadcasts_S5000x1_S5000x64 (ix2 p q) (ix2 p (0 : Fin 1)) fun ax => ?_
  match ax with
  | ⟨0, _⟩ => rfl
  | ⟨1, _⟩ => rfl

/-- The [64] bias viewed [1, 64] and broadcast over the 5000 rows reads, at (p, q), the bias at q. -/
theorem bias_apply (b : Vec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

theorem lhs_axis0 (j : S5000x64.Idx) (k : dot_S5000x64_S64x64_S5000x64_1_0_0_1_n_n.contr.Idx) :
    (dot_S5000x64_S64x64_S5000x64_1_0_0_1_n_n.lhsIdx j k 0).val = (j 0).val := rfl
theorem lhs_axis1 (j : S5000x64.Idx) (k : dot_S5000x64_S64x64_S5000x64_1_0_0_1_n_n.contr.Idx) :
    (dot_S5000x64_S64x64_S5000x64_1_0_0_1_n_n.lhsIdx j k 1).val = (k ⟨0, by decide⟩).val := rfl
theorem rhs_axis0 (j : S5000x64.Idx) (k : dot_S5000x64_S64x64_S5000x64_1_0_0_1_n_n.contr.Idx) :
    (dot_S5000x64_S64x64_S5000x64_1_0_0_1_n_n.rhsIdx j k 0).val = (k ⟨0, by decide⟩).val := rfl
theorem rhs_axis1 (j : S5000x64.Idx) (k : dot_S5000x64_S64x64_S5000x64_1_0_0_1_n_n.contr.Idx) :
    (dot_S5000x64_S64x64_S5000x64_1_0_0_1_n_n.rhsIdx j k 1).val = (j 1).val := rfl

/-- The product of a [5000, 64] by a [64, 64] operand into the zero accumulator, at (p, q): the sum over the 64
    contracted positions of row p of the left times column q of the right. -/
theorem matmul_apply_ix {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  refine (Ideal.matmul_constant_zero_apply dot_S5000x64_S64x64_S5000x64_1_0_0_1_n_n none lhs rhs (ix2 p q)).trans ?_
  refine (Equiv.sum_comp (contrEquiv1 dot_S5000x64_S64x64_S5000x64_1_0_0_1_n_n 64 rfl rfl).symm _).symm.trans ?_
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q)
      ((contrEquiv1 dot_S5000x64_S64x64_S5000x64_1_0_0_1_n_n 64 rfl rfl).symm k) = ix2 p k :=
    Shape.idx_ext₂ (lhs_axis0 _ _) ((lhs_axis1 _ _).trans hk)
  have hr : dot_S5000x64_S64x64_S5000x64_1_0_0_1_n_n.rhsIdx (ix2 p q)
      ((contrEquiv1 dot_S5000x64_S64x64_S5000x64_1_0_0_1_n_n 64 rfl rfl).symm k) = ix2 k q :=
    Shape.idx_ext₂ ((rhs_axis0 _ _).trans hk) (rhs_axis1 _ _)
  rw [hl, hr]

/-- The body's payload at (p, q): the dense layer's entry of the loaded blocks. -/
theorem pay_apply (x : Vec Ideal S5000x64 .f32) (pre : Vec Ideal S5000x1 .f32) (W : Vec Ideal S64x64 .f32)
    (b : Vec Ideal S64 .f32) (post : Vec Ideal S5000x1 .f32) (p : Fin 5000) (q : Fin 64) :
    k1_pay1 (F := Ideal) x pre W b post (ix2 p q)
      = Ideal.tanh ((∑ k : Fin 64, (x (ix2 p k) * pre (ix2 p (0 : Fin 1))) * W (ix2 k q)) + b (ix1 q))
          * post (ix2 p (0 : Fin 1)) := by
  unfold k1_pay1
  show Ideal.tanh (matmul dot_S5000x64_S64x64_S5000x64_1_0_0_1_n_n none
        (truncf .bf16 (mulf (shapeCast S5000x64 x shapeCasts_S5000x64_S5000x64)
          (broadcastTo S5000x64 (shapeCast S5000x1 pre shapeCasts_S5000x1_S5000x1) broadcasts_S5000x1_S5000x64)) bitsLt_bf16_f32)
        (truncf .bf16 W bitsLt_bf16_f32) (constant (F := Ideal) S5000x64 .f32 0x00000000#32) (ix2 p q)
      + broadcastTo S5000x64 (shapeCast S1x64 b shapeCasts_S64_S1x64) broadcasts_S1x64_S5000x64 (ix2 p q))
      * broadcastTo S5000x64 (shapeCast S5000x1 post shapeCasts_S5000x1_S5000x1) broadcasts_S5000x1_S5000x64 (ix2 p q) = _
  rw [matmul_apply_ix, bias_apply, column_apply, shapeCast_self]
  refine congrArg (fun s => Ideal.tanh (s + b (ix1 q)) * post (ix2 p (0 : Fin 1))) (Finset.sum_congr rfl fun k _ => ?_)
  show (x (ix2 p k) * broadcastTo S5000x64 (shapeCast S5000x1 pre shapeCasts_S5000x1_S5000x1) broadcasts_S5000x1_S5000x64 (ix2 p k))
      * W (ix2 k q) = _
  rw [column_apply]

/-- So the payload at (p, q) of blocks that hold rows r.. of the arrays is the dense layer's entry (r, q) of the arrays:
    row p of the input block and of the two scale blocks is row r of theirs, the weight and bias blocks are whole. -/
theorem block_entry (X : (⟨2, ![100000, 64]⟩ : Shape).Idx → EReal) (W : (⟨2, ![64, 64]⟩ : Shape).Idx → EReal)
    (b : (⟨1, ![64]⟩ : Shape).Idx → EReal) (pre post : (⟨2, ![100000, 1]⟩ : Shape).Idx → EReal)
    (x : Vec Ideal S5000x64 .f32) (xpre : Vec Ideal S5000x1 .f32) (w : Vec Ideal S64x64 .f32) (xb : Vec Ideal S64 .f32)
    (xpost : Vec Ideal S5000x1 .f32) (p : Fin 5000) (q : Fin 64) (r : Fin 100000)
    (hx : ∀ k : Fin 64, x (ix2 p k) = X (ix2 r k)) (hw : ∀ k : Fin 64, w (ix2 k q) = W (ix2 k q))
    (hb : xb (ix1 q) = b (ix1 q)) (hpre : xpre (ix2 p (0 : Fin 1)) = pre (ix2 r (0 : Fin 1)))
    (hpost : xpost (ix2 p (0 : Fin 1)) = post (ix2 r (0 : Fin 1))) :
    k1_pay1 (F := Ideal) x xpre w xb xpost (ix2 p q) = GcnSpec.dense1 Ideal.tanh 64 X W b pre post (ix2 r q) := by
  rw [pay_apply, hb, hpre, hpost]
  show _ = Ideal.tanh ((∑ k : Fin 64, (X (ix2 r k) * pre (ix2 r (0 : Fin 1))) * W (ix2 k q)) + b (ix1 q))
    * post (ix2 r (0 : Fin 1))
  refine congrArg (fun s => Ideal.tanh (s + b (ix1 q)) * post (ix2 r (0 : Fin 1))) (Finset.sum_congr rfl fun k _ => ?_)
  rw [hx k, hw k]

/-! ## The payload over the staged blocks, block by block -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the grid: point t stages block t of rows of the input, of the two row scales
    and of the output, whole columns; the weight and the bias are one block each. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of the input's block at point t is row t · 5000 + p of the input. -/
theorem input_block (c : Dev nD) (t : Fin cfg1.N) (p : Fin 5000) (k : Fin 64) (r : Fin 100000)
    (hr : r.val = t.val * 5000 + p.val) :
    Gen.iblk1 (F := Ideal) V c 0 t (ix2 p k) = V c main_v32 (ix2 r k) := by
  show V c main_v32 (((cfg1.win 0).blk t).view.emb (ix2 p k)) = V c main_v32 (ix2 r k)
  refine congrArg (V c main_v32) (funext fun a => Fin.ext ?_)
  obtain ⟨e0, e1, -⟩ := block_indices t
  match a with
  | ⟨0, _⟩ => show win1_0.index t (0 : Fin 2) * 5000 + 1 * p.val = r.val; omega
  | ⟨1, _⟩ => show win1_0.index t (1 : Fin 2) * 64 + 1 * k.val = k.val; omega

/-- The weight's one block is the weight. -/
theorem weight_block (c : Dev nD) (t : Fin cfg1.N) (k : Fin 64) (q : Fin 64) :
    Gen.iblk1 (F := Ideal) V c 1 t (ix2 k q) = V c main_arg5 (ix2 k q) := by
  show V c main_arg5 (((cfg1.win 1).blk t).view.emb (ix2 k q)) = V c main_arg5 (ix2 k q)
  refine congrArg (V c main_arg5) (funext fun a => Fin.ext ?_)
  obtain ⟨-, -, e0, e1, -⟩ := block_indices t
  match a with
  | ⟨0, _⟩ => show win1_1.index t (0 : Fin 2) * 64 + 1 * k.val = k.val; omega
  | ⟨1, _⟩ => show win1_1.index t (1 : Fin 2) * 64 + 1 * q.val = q.val; omega

/-- The bias's one block is the bias. -/
theorem bias_block (c : Dev nD) (t : Fin cfg1.N) (q : Fin 64) :
    Gen.iblk1 (F := Ideal) V c 2 t (ix1 q) = V c main_arg6 (ix1 q) := by
  show V c main_arg6 (((cfg1.win 2).blk t).view.emb (ix1 q)) = V c main_arg6 (ix1 q)
  refine congrArg (V c main_arg6) (funext fun a => Fin.ext ?_)
  obtain ⟨-, -, -, -, e0, -⟩ := block_indices t
  match a with
  | ⟨0, _⟩ => show win1_2.index t (0 : Fin 1) * 64 + 1 * q.val = q.val; omega

/-- Row p of the input scale's block at point t is row t · 5000 + p of the scale. -/
theorem pre_block (c : Dev nD) (t : Fin cfg1.N) (p : Fin 5000) (r : Fin 100000)
    (hr : r.val = t.val * 5000 + p.val) :
    Gen.iblk1 (F := Ideal) V c 3 t (ix2 p (0 : Fin 1)) = V c main_v18 (ix2 r (0 : Fin 1)) := by
  show V c main_v18 (((cfg1.win 3).blk t).view.emb (ix2 p (0 : Fin 1))) = V c main_v18 (ix2 r (0 : Fin 1))
  refine congrArg (V c main_v18) (funext fun a => Fin.ext ?_)
  obtain ⟨-, -, -, -, -, e0, e1, -⟩ := block_indices t
  match a with
  | ⟨0, _⟩ => show win1_3.index t (0 : Fin 2) * 5000 + 1 * p.val = r.val; omega
  | ⟨1, _⟩ => show win1_3.index t (1 : Fin 2) * 1 + 1 * 0 = 0; omega

/-- Row p of the output scale's block at point t is row t · 5000 + p of the scale. -/
theorem post_block (c : Dev nD) (t : Fin cfg1.N) (p : Fin 5000) (r : Fin 100000)
    (hr : r.val = t.val * 5000 + p.val) :
    Gen.iblk1 (F := Ideal) V c 4 t (ix2 p (0 : Fin 1)) = V c main_v14 (ix2 r (0 : Fin 1)) := by
  show V c main_v14 (((cfg1.win 4).blk t).view.emb (ix2 p (0 : Fin 1))) = V c main_v14 (ix2 r (0 : Fin 1))
  refine congrArg (V c main_v14) (funext fun a => Fin.ext ?_)
  obtain ⟨-, -, -, -, -, -, -, e0, e1, -⟩ := block_indices t
  match a with
  | ⟨0, _⟩ => show win1_4.index t (0 : Fin 2) * 5000 + 1 * p.val = r.val; omega
  | ⟨1, _⟩ => show win1_4.index t (1 : Fin 2) * 1 + 1 * 0 = 0; omega

/-- Entry (p, q) of the output's block at point t sits at row t · 5000 + p, column q of the output. -/
theorem output_block (t : Fin cfg1.N) (p : Fin 5000) (q : Fin 64) (r : Fin 100000)
    (hr : r.val = t.val * 5000 + p.val) :
    ((cfg1.win 5).blk t).view.emb (ix2 p q) = ix2 r q := by
  refine funext fun a => Fin.ext ?_
  obtain ⟨-, -, -, -, -, -, -, -, -, e0, e1⟩ := block_indices t
  match a with
  | ⟨0, _⟩ => show win1_5.index t (0 : Fin 2) * 5000 + 1 * p.val = r.val; omega
  | ⟨1, _⟩ => show win1_5.index t (1 : Fin 2) * 64 + 1 * q.val = q.val; omega

/-- WHAT POINT t WRITES BACK is block t of the dense layer of the arrays the region reads. -/
theorem flushed_eq (c : Dev nD) (t : Fin cfg1.N) :
    (Gen.dat1 (F := Ideal) V c).flushed 5 t = ((cfg1.win 5).blk t).view.read (Elt Ideal)
      (GcnSpec.dense1 Ideal.tanh 64 (V c main_v32) (V c main_arg5) (V c main_arg6) (V c main_v18) (V c main_v14)) := by
  show (cfg1.win 5).cut (grid1.coords t) ((Gen.dat1 V c).after 5 t) = _
  rw [Gen.after1_5]
  unfold Gen.out1_5
  rw [View.canon_unit_zero zero_offsets2]
  simp only [View.ld_unit_zero (S := S5000x64) zero_offsets2, View.ld_unit_zero (S := S5000x1) zero_offsets2,
    View.ld_unit_zero (S := S64x64) zero_offsets2, View.ld_unit_zero (S := S64) zero_offsets1]
  funext j
  obtain ⟨p, q, rfl⟩ : ∃ (p : Fin 5000) (q : Fin 64), j = ix2 p q := ⟨j 0, j 1, eq_ix2 j⟩
  have ht : t.val < 20 := lt_of_lt_of_eq t.isLt Gen.N_1
  have hp : p.val < 5000 := p.isLt
  obtain ⟨r, hr⟩ : ∃ r : Fin 100000, r.val = t.val * 5000 + p.val := ⟨⟨t.val * 5000 + p.val, by omega⟩, rfl⟩
  show _ = GcnSpec.dense1 Ideal.tanh 64 (V c main_v32) (V c main_arg5) (V c main_arg6) (V c main_v18) (V c main_v14)
    (((cfg1.win 5).blk t).view.emb (ix2 p q))
  rw [output_block t p q r hr]
  exact block_entry (V c main_v32) (V c main_arg5) (V c main_arg6) (V c main_v18) (V c main_v14)
    (Gen.iblk1 V c 0 t) (Gen.iblk1 V c 3 t) (Gen.iblk1 V c 1 t) (Gen.iblk1 V c 2 t) (Gen.iblk1 V c 4 t) p q r
    (fun k => input_block V c t p k r hr) (fun k => weight_block V c t k q) (bias_block V c t q)
    (pre_block V c t p r hr) (post_block V c t p r hr)

/-! ## The twenty blocks tile the array -/

/-- An index of the output is in point t's block iff each coordinate is in the block's range on its axis. -/
theorem mem_block (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v33).slice (win1_5.rect t)).set ↔ _
  rw [View.set_slice_whole, Rect.mem_set_unit]
  exact Iff.rfl

/-- Every row r is in the block of point r / 5000. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := Gen.N_1
  let t : Fin cfg1.N := ⟨(i 0).val / 5000, by show (i 0).val / 5000 < grid1.N; omega⟩
  have htv : t.val = (i 0).val / 5000 := rfl
  refine ⟨t, Gen.flush1_5 t, ?_⟩
  rw [mem_block]
  obtain ⟨-, -, -, -, -, -, -, -, -, e0, e1⟩ := block_indices t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE ARRAY after the twenty write-backs: the dense layer of the arrays the region reads. -/
theorem final1 (c : Dev nD) :
    (Gen.dat1 (F := Ideal) V c).arrAt 5 cfg1.N
      = GcnSpec.dense1 Ideal.tanh 64 (V c main_v32) (V c main_arg5) (V c main_arg6) (V c main_v18) (V c main_v14) :=
  (Gen.dat1 (F := Ideal) V c).arrAt_eq_of_cover 5 _ (fun t _ => flushed_eq V c t) covered

end Cert.KernelIdeal.Region1

end
-- ==== Proof.Region2.lean ====
/-
  The array pallas_call 2 leaves in its output, as one function of the arrays it reads: every block of 5000 rows the
  grid writes back is the dense layer (Spec.lean) of the same rows of the input, and the 20 blocks tile the 100000 rows.
-/
import proofs.«416693_j5531917877789_3_alg».proof.Proof.Gen.KernelIdeal.Frame
import proofs.«416693_j5531917877789_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product's operand indices, axis by axis -/

theorem lhs_0 (j : S5000x16.Idx) (k : dot_S5000x64_S64x16_S5000x16_1_0_0_1_n_n.contr.Idx) :
    ((dot_S5000x64_S64x16_S5000x16_1_0_0_1_n_n.lhsIdx j k) 0).val = (j 0).val := rfl

theorem lhs_1 (j : S5000x16.Idx) (k : dot_S5000x64_S64x16_S5000x16_1_0_0_1_n_n.contr.Idx) :
    ((dot_S5000x64_S64x16_S5000x16_1_0_0_1_n_n.lhsIdx j k) 1).val = (k ⟨0, by decide⟩).val :=
  DotDims.lhsIdx_val_of_single (d := dot_S5000x64_S64x16_S5000x16_1_0_0_1_n_n) (cl := 1) rfl j k

theorem rhs_0 (j : S5000x16.Idx) (k : dot_S5000x64_S64x16_S5000x16_1_0_0_1_n_n.contr.Idx) :
    ((dot_S5000x64_S64x16_S5000x16_1_0_0_1_n_n.rhsIdx j k) 0).val = (k ⟨0, by decide⟩).val :=
  DotDims.rhsIdx_val_of_single (d := dot_S5000x64_S64x16_S5000x16_1_0_0_1_n_n) (cr := 0) rfl j k

theorem rhs_1 (j : S5000x16.Idx) (k : dot_S5000x64_S64x16_S5000x16_1_0_0_1_n_n.contr.Idx) :
    ((dot_S5000x64_S64x16_S5000x16_1_0_0_1_n_n.rhsIdx j k) 1).val = (j 1).val := rfl

/-- The product into the zero accumulator, read at row `p`, column `q`: the sum over the 64 contracted positions. -/
theorem matmul_at (A : FVec Ideal S5000x64 .bf16) (B : FVec Ideal S64x16 .bf16) (p : Fin 5000) (q : Fin 16) :
    matmul dot_S5000x64_S64x16_S5000x16_1_0_0_1_n_n none A B (constant (F := Ideal) S5000x16 .f32 0x00000000#32) (ix2 p q)
      = ∑ k : Fin 64, A (ix2 p k) * B (ix2 k q) := by
  refine (Ideal.matmul_constant_zero_apply dot_S5000x64_S64x16_S5000x16_1_0_0_1_n_n none A B (ix2 p q)).trans ?_
  rw [← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  congr 2
  · funext a; apply Fin.ext
    match a with
    | ⟨0, _⟩ => exact lhs_0 _ _
    | ⟨1, _⟩ => exact (lhs_1 _ _).trans hk
  · funext a; apply Fin.ext
    match a with
    | ⟨0, _⟩ => exact (rhs_0 _ _).trans hk
    | ⟨1, _⟩ => exact rhs_1 _ _

/-! ## The layout operations of the body, read at an index -/

/-- A `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at row `p`, column `q` of a block -/

theorem pay_at (x0 : Vec Ideal S5000x64 .f32) (pre : Vec Ideal S5000x1 .f32) (W : Vec Ideal S64x16 .f32)
    (b : Vec Ideal S16 .f32) (post : Vec Ideal S5000x1 .f32) (p : Fin 5000) (q : Fin 16) :
    k2_pay1 (F := Ideal) x0 pre W b post (ix2 p q)
      = ((∑ k : Fin 64, (x0 (ix2 p k) * pre (ix2 p (0 : Fin 1))) * W (ix2 k q)) + b (ix1 q)) * post (ix2 p (0 : Fin 1)) := by
  unfold k2_pay1
  simp only [shapeCast_self]
  rw [mulf_apply, addf_apply, matmul_at, broadcastTo_a1_ab_apply, broadcastTo_1b_ab_apply, shapeCast_a_1a_apply]
  congr 2
  refine Finset.sum_congr rfl fun k _ => ?_
  rw [truncf_apply, truncf_apply, mulf_apply, broadcastTo_a1_ab_apply]

variable (V : (c : Dev nD) → (b : Ref sig .tc) → Buf (Elt Ideal) ((c : Thread nD τ).loc b))

/-! ## Where each window's block sits -/

theorem hz : (![0, 0] : Fin 2 → Nat) = fun _ => 0 := funext fun a => by fin_cases a <;> rfl
theorem hz1 : (![0] : Fin 1 → Nat) = fun _ => 0 := funext fun a => by fin_cases a <;> rfl

/-- The windows' index maps over the 20 grid points: the row-blocked windows move with the output's row block,
    every other block index is 0, and the output's row block at point `t` is `t`. -/
theorem idx_facts : ∀ t : Fin cfg2.N, win2_0.index t (0 : Fin 2) = win2_5.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = win2_5.index t (0 : Fin 2)
    ∧ win2_3.index t (1 : Fin 2) = 0
    ∧ win2_4.index t (0 : Fin 2) = win2_5.index t (0 : Fin 2)
    ∧ win2_4.index t (1 : Fin 2) = 0
    ∧ win2_5.index t (0 : Fin 2) = t.val
    ∧ win2_5.index t (1 : Fin 2) = 0 :=
  (by decide +kernel : ∀ t : Fin grid2.N, _)

/-- What point `t` writes back is block `t` of the dense layer of the arrays the region reads. -/
theorem flushed_eq (c : Dev nD) (t : Fin cfg2.N) :
    (Gen.dat2 (F := Ideal) V c).flushed 5 t = ((cfg2.win 5).blk t).view.read (Elt Ideal)
      (GcnSpec.dense1 id 16 (V c main_v38) (V c main_arg7) (V c main_arg8) (V c main_v18) (V c main_v22)) := by
  show (cfg2.win 5).cut (grid2.coords t) ((Gen.dat2 V c).after 5 t) = _
  rw [Gen.after2_5]
  unfold Gen.out2_5
  rw [View.canon_unit_zero hz]
  simp only [View.ld_unit_zero (S := S5000x64) hz, View.ld_unit_zero (S := S5000x1) hz, View.ld_unit_zero (S := S64x16) hz,
    View.ld_unit_zero (S := S16) hz1]
  obtain ⟨e00, e01, e10, e11, e20, e30, e31, e40, e41, e50, e51⟩ := idx_facts t
  funext j
  obtain ⟨p, q, rfl⟩ : ∃ (p : Fin 5000) (q : Fin 16), j = ix2 p q := ⟨j 0, j 1, eq_ix2 j⟩
  refine (pay_at (Gen.iblk2 V c 0 t) (Gen.iblk2 V c 3 t) (Gen.iblk2 V c 1 t) (Gen.iblk2 V c 2 t) (Gen.iblk2 V c 4 t) p q).trans ?_
  show _ = GcnSpec.dense1 id 16 (V c main_v38) (V c main_arg7) (V c main_arg8) (V c main_v18) (V c main_v22)
    (((cfg2.win 5).blk t).view.emb (ix2 p q))
  have hr : ((((cfg2.win 5).blk t).view.emb (ix2 p q)) 0).val = win2_5.index t (0 : Fin 2) * 5000 + 1 * p.val := rfl
  have hc : ((((cfg2.win 5).blk t).view.emb (ix2 p q)) 1).val = win2_5.index t (1 : Fin 2) * 16 + 1 * q.val := rfl
  have h0 : ∀ k : Fin 64, Gen.iblk2 V c 0 t (ix2 p k) = V c main_v38 (ix2 ((((cfg2.win 5).blk t).view.emb (ix2 p q)) 0) k) := fun k => by
    show V c main_v38 (((cfg2.win 0).blk t).view.emb (ix2 p k)) = _
    refine congrArg (V c main_v38) (funext fun a => Fin.ext ?_)
    match a with
    | ⟨0, _⟩ => show win2_0.index t (0 : Fin 2) * 5000 + 1 * p.val = _; rw [hr, e00]
    | ⟨1, _⟩ => show win2_0.index t (1 : Fin 2) * 64 + 1 * k.val = k.val; omega
  have h3 : Gen.iblk2 V c 3 t (ix2 p (0 : Fin 1)) = V c main_v18 (ix2 ((((cfg2.win 5).blk t).view.emb (ix2 p q)) 0) (0 : Fin 1)) := by
    show V c main_v18 (((cfg2.win 3).blk t).view.emb (ix2 p (0 : Fin 1))) = _
    refine congrArg (V c main_v18) (funext fun a => Fin.ext ?_)
    match a with
    | ⟨0, _⟩ => show win2_3.index t (0 : Fin 2) * 5000 + 1 * p.val = _; rw [hr, e30]
    | ⟨1, _⟩ => show win2_3.index t (1 : Fin 2) * 1 + 1 * 0 = 0; omega
  have h4 : Gen.iblk2 V c 4 t (ix2 p (0 : Fin 1)) = V c main_v22 (ix2 ((((cfg2.win 5).blk t).view.emb (ix2 p q)) 0) (0 : Fin 1)) := by
    show V c main_v22 (((cfg2.win 4).blk t).view.emb (ix2 p (0 : Fin 1))) = _
    refine congrArg (V c main_v22) (funext fun a => Fin.ext ?_)
    match a with
    | ⟨0, _⟩ => show win2_4.index t (0 : Fin 2) * 5000 + 1 * p.val = _; rw [hr, e40]
    | ⟨1, _⟩ => show win2_4.index t (1 : Fin 2) * 1 + 1 * 0 = 0; omega
  have h1 : ∀ k : Fin 64, Gen.iblk2 V c 1 t (ix2 k q) = V c main_arg7 (ix2 k ((((cfg2.win 5).blk t).view.emb (ix2 p q)) 1)) := fun k => by
    show V c main_arg7 (((cfg2.win 1).blk t).view.emb (ix2 k q)) = _
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 16 + 1 * q.val = _; rw [hc, e11, e51]
  have h2 : Gen.iblk2 V c 2 t (ix1 q) = V c main_arg8 (ix1 ((((cfg2.win 5).blk t).view.emb (ix2 p q)) 1)) := by
    show V c main_arg8 (((cfg2.win 2).blk t).view.emb (ix1 q)) = _
    refine congrArg (V c main_arg8) (funext fun a => Fin.ext ?_)
    match a with
    | ⟨0, _⟩ => show win2_2.index t (0 : Fin 1) * 16 + 1 * q.val = _; rw [hc, e20, e51]
  unfold GcnSpec.dense1
  rw [h3, h2, h4]
  simp only [h0, h1, id]

/-! ## The 20 blocks tile the array -/

/-- An index of the array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v39).slice (win2_5.rect t)).set ↔ _
  rw [View.set_slice_whole, Rect.mem_set_unit]
  exact Iff.rfl

/-- Row `r` is in the block of point `r / 5000`, whose 16 columns are the array's. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : grid2.N = 20 := Gen.N_2
  let t : Fin cfg2.N := ⟨(i 0).val / 5000, by show (i 0).val / 5000 < grid2.N; omega⟩
  obtain ⟨-, -, -, -, -, -, -, -, -, e50, e51⟩ := idx_facts t
  have ht : t.val = (i 0).val / 5000 := rfl
  refine ⟨t, Gen.flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- The output array after all 20 write-backs is the dense layer of the arrays the region reads. -/
theorem final2 (c : Dev nD) :
    (Gen.dat2 (F := Ideal) V c).arrAt 5 cfg2.N
      = GcnSpec.dense1 id 16 (V c main_v38) (V c main_arg7) (V c main_arg8) (V c main_v18) (V c main_v22) :=
  (Gen.dat2 (F := Ideal) V c).arrAt_eq_of_cover 5
    (GcnSpec.dense1 id 16 (V c main_v38) (V c main_arg7) (V c main_arg8) (V c main_v18) (V c main_v22))
    (fun t _ => flushed_eq V c t) cover

end Cert.KernelIdeal.Region2

end
-- ==== Proof.KChain.lean ====
/-
  The kernel program's result, read through its ten segments: the value the last host stretch leaves in the result
  buffer is `kernelValue` (KTerms.lean) of the nine argument arrays.

  The buffer contents at each segment boundary are a fold from the launch memory: a host stretch applies its
  operations, a pallas_call replaces its output array by what its grid writes back (Region0/1/2.lean: a dense layer of
  the arrays it reads) and leaves every other buffer alone.  Each lemma below reads one buffer at one boundary; a buffer
  no operation of a stretch writes and no region outputs keeps its contents across that segment.
-/
import proofs.«416693_j5531917877789_3_alg».proof.Proof.Gen.KernelIdeal.Frame
import proofs.«416693_j5531917877789_3_alg».proof.Proof.KTerms
import proofs.«416693_j5531917877789_3_alg».proof.Proof.KCalls
import proofs.«416693_j5531917877789_3_alg».proof.Proof.Region0
import proofs.«416693_j5531917877789_3_alg».proof.Proof.Region1
import proofs.«416693_j5531917877789_3_alg».proof.Proof.Region2
import Idealize.ShloMosaic.Lib.StableHlo.Run

set_option maxRecDepth 16384

noncomputable section

namespace Cert.KernelIdeal.KChain

open Idealize.ShloMosaic Idealize.ShloMosaic.TcCoe Idealize.SL.Sem Cert.KernelIdeal Cert.KernelIdeal.Gen Cert.KernelIdeal.KV
open Idealize.ShloMosaic.StableHlo

variable (m : (ℓ : Loc nD τ sig) → Buf (Elt Ideal) ℓ) (ρ : Dev nD → PrngReg)

/-! ## Region 0's entry: the four normalising columns, and the arguments as launched -/

theorem W1_main_arg0 (c : Dev nD) : W1 m ρ c (Proc.devRef .tc main_arg0) = (m ((c : Thread nD τ).loc main_arg0)) := by
  show StableHlo.after hostOps0 (W0 m ρ c) (Proc.devRef .tc main_arg0) = _
  after_results

theorem W1_main_arg3 (c : Dev nD) : W1 m ρ c (Proc.devRef .tc main_arg3) = (m ((c : Thread nD τ).loc main_arg3)) := by
  show StableHlo.after hostOps0 (W0 m ρ c) (Proc.devRef .tc main_arg3) = _
  after_results

theorem W1_main_arg4 (c : Dev nD) : W1 m ρ c (Proc.devRef .tc main_arg4) = (m ((c : Thread nD τ).loc main_arg4)) := by
  show StableHlo.after hostOps0 (W0 m ρ c) (Proc.devRef .tc main_arg4) = _
  after_results

theorem W1_main_arg1 (c : Dev nD) : W1 m ρ c (Proc.devRef .tc main_arg1) = (m ((c : Thread nD τ).loc main_arg1)) := by
  show StableHlo.after hostOps0 (W0 m ρ c) (Proc.devRef .tc main_arg1) = _
  after_results

theorem W1_main_arg2 (c : Dev nD) : W1 m ρ c (Proc.devRef .tc main_arg2) = (m ((c : Thread nD τ).loc main_arg2)) := by
  show StableHlo.after hostOps0 (W0 m ρ c) (Proc.devRef .tc main_arg2) = _
  after_results

theorem W1_main_arg5 (c : Dev nD) : W1 m ρ c (Proc.devRef .tc main_arg5) = (m ((c : Thread nD τ).loc main_arg5)) := by
  show StableHlo.after hostOps0 (W0 m ρ c) (Proc.devRef .tc main_arg5) = _
  after_results

theorem W1_main_arg6 (c : Dev nD) : W1 m ρ c (Proc.devRef .tc main_arg6) = (m ((c : Thread nD τ).loc main_arg6)) := by
  show StableHlo.after hostOps0 (W0 m ρ c) (Proc.devRef .tc main_arg6) = _
  after_results

theorem W1_main_arg7 (c : Dev nD) : W1 m ρ c (Proc.devRef .tc main_arg7) = (m ((c : Thread nD τ).loc main_arg7)) := by
  show StableHlo.after hostOps0 (W0 m ρ c) (Proc.devRef .tc main_arg7) = _
  after_results

theorem W1_main_arg8 (c : Dev nD) : W1 m ρ c (Proc.devRef .tc main_arg8) = (m ((c : Thread nD τ).loc main_arg8)) := by
  show StableHlo.after hostOps0 (W0 m ρ c) (Proc.devRef .tc main_arg8) = _
  after_results

theorem W1_main_v14 (c : Dev nD) : W1 m ρ c (Proc.devRef .tc main_v14) = (scaleCol (addf (deg (m ((c : Thread nD τ).loc main_arg1))) onesN)) := by
  show StableHlo.after hostOps0 (W0 m ρ c) (Proc.devRef .tc main_v14) = _
  after_results
  rfl

theorem W1_main_v18 (c : Dev nD) : W1 m ρ c (Proc.devRef .tc main_v18) = (scaleCol (addf (deg (m ((c : Thread nD τ).loc main_arg2))) onesN)) := by
  show StableHlo.after hostOps0 (W0 m ρ c) (Proc.devRef .tc main_v18) = _
  after_results
  rfl

theorem W1_main_v22 (c : Dev nD) : W1 m ρ c (Proc.devRef .tc main_v22) = (scaleCol (deg (m ((c : Thread nD τ).loc main_arg1)))) := by
  show StableHlo.after hostOps0 (W0 m ρ c) (Proc.devRef .tc main_v22) = _
  after_results
  rfl

theorem W1_main_v26 (c : Dev nD) : W1 m ρ c (Proc.devRef .tc main_v26) = (scaleCol (deg (m ((c : Thread nD τ).loc main_arg2)))) := by
  show StableHlo.after hostOps0 (W0 m ρ c) (Proc.devRef .tc main_v26) = _
  after_results
  rfl

/-! ## Buffers carried unchanged to the later boundaries -/

theorem W2_main_arg1 (c : Dev nD) : W2 m ρ c (Proc.devRef .tc main_arg1) = (m ((c : Thread nD τ).loc main_arg1)) :=
  (W2_of_ne m ρ c main_arg1 (by decide)).trans (W1_main_arg1 m ρ c)
theorem W4_main_arg1 (c : Dev nD) : W4 m ρ c (Proc.devRef .tc main_arg1) = (m ((c : Thread nD τ).loc main_arg1)) :=
  (show StableHlo.after hostOps1_1 (StableHlo.after hostOps1 (W2 m ρ c)) (Proc.devRef .tc main_arg1) = W2 m ρ c (Proc.devRef .tc main_arg1) by
    after_results).trans (W2_main_arg1 m ρ c)
theorem W5_main_arg1 (c : Dev nD) : W5 m ρ c (Proc.devRef .tc main_arg1) = (m ((c : Thread nD τ).loc main_arg1)) :=
  (W5_of_ne m ρ c main_arg1 (by decide)).trans (W4_main_arg1 m ρ c)
theorem W7_main_arg1 (c : Dev nD) : W7 m ρ c (Proc.devRef .tc main_arg1) = (m ((c : Thread nD τ).loc main_arg1)) :=
  (show StableHlo.after hostOps2_1 (StableHlo.after hostOps2 (W5 m ρ c)) (Proc.devRef .tc main_arg1) = W5 m ρ c (Proc.devRef .tc main_arg1) by
    after_results).trans (W5_main_arg1 m ρ c)
theorem W8_main_arg1 (c : Dev nD) : W8 m ρ c (Proc.devRef .tc main_arg1) = (m ((c : Thread nD τ).loc main_arg1)) :=
  (W8_of_ne m ρ c main_arg1 (by decide)).trans (W7_main_arg1 m ρ c)

theorem W2_main_arg2 (c : Dev nD) : W2 m ρ c (Proc.devRef .tc main_arg2) = (m ((c : Thread nD τ).loc main_arg2)) :=
  (W2_of_ne m ρ c main_arg2 (by decide)).trans (W1_main_arg2 m ρ c)
theorem W4_main_arg2 (c : Dev nD) : W4 m ρ c (Proc.devRef .tc main_arg2) = (m ((c : Thread nD τ).loc main_arg2)) :=
  (show StableHlo.after hostOps1_1 (StableHlo.after hostOps1 (W2 m ρ c)) (Proc.devRef .tc main_arg2) = W2 m ρ c (Proc.devRef .tc main_arg2) by
    after_results).trans (W2_main_arg2 m ρ c)
theorem W5_main_arg2 (c : Dev nD) : W5 m ρ c (Proc.devRef .tc main_arg2) = (m ((c : Thread nD τ).loc main_arg2)) :=
  (W5_of_ne m ρ c main_arg2 (by decide)).trans (W4_main_arg2 m ρ c)
theorem W7_main_arg2 (c : Dev nD) : W7 m ρ c (Proc.devRef .tc main_arg2) = (m ((c : Thread nD τ).loc main_arg2)) :=
  (show StableHlo.after hostOps2_1 (StableHlo.after hostOps2 (W5 m ρ c)) (Proc.devRef .tc main_arg2) = W5 m ρ c (Proc.devRef .tc main_arg2) by
    after_results).trans (W5_main_arg2 m ρ c)
theorem W8_main_arg2 (c : Dev nD) : W8 m ρ c (Proc.devRef .tc main_arg2) = (m ((c : Thread nD τ).loc main_arg2)) :=
  (W8_of_ne m ρ c main_arg2 (by decide)).trans (W7_main_arg2 m ρ c)

theorem W2_main_arg5 (c : Dev nD) : W2 m ρ c (Proc.devRef .tc main_arg5) = (m ((c : Thread nD τ).loc main_arg5)) :=
  (W2_of_ne m ρ c main_arg5 (by decide)).trans (W1_main_arg5 m ρ c)
theorem W4_main_arg5 (c : Dev nD) : W4 m ρ c (Proc.devRef .tc main_arg5) = (m ((c : Thread nD τ).loc main_arg5)) :=
  (show StableHlo.after hostOps1_1 (StableHlo.after hostOps1 (W2 m ρ c)) (Proc.devRef .tc main_arg5) = W2 m ρ c (Proc.devRef .tc main_arg5) by
    after_results).trans (W2_main_arg5 m ρ c)

theorem W2_main_arg6 (c : Dev nD) : W2 m ρ c (Proc.devRef .tc main_arg6) = (m ((c : Thread nD τ).loc main_arg6)) :=
  (W2_of_ne m ρ c main_arg6 (by decide)).trans (W1_main_arg6 m ρ c)
theorem W4_main_arg6 (c : Dev nD) : W4 m ρ c (Proc.devRef .tc main_arg6) = (m ((c : Thread nD τ).loc main_arg6)) :=
  (show StableHlo.after hostOps1_1 (StableHlo.after hostOps1 (W2 m ρ c)) (Proc.devRef .tc main_arg6) = W2 m ρ c (Proc.devRef .tc main_arg6) by
    after_results).trans (W2_main_arg6 m ρ c)

theorem W2_main_arg7 (c : Dev nD) : W2 m ρ c (Proc.devRef .tc main_arg7) = (m ((c : Thread nD τ).loc main_arg7)) :=
  (W2_of_ne m ρ c main_arg7 (by decide)).trans (W1_main_arg7 m ρ c)
theorem W4_main_arg7 (c : Dev nD) : W4 m ρ c (Proc.devRef .tc main_arg7) = (m ((c : Thread nD τ).loc main_arg7)) :=
  (show StableHlo.after hostOps1_1 (StableHlo.after hostOps1 (W2 m ρ c)) (Proc.devRef .tc main_arg7) = W2 m ρ c (Proc.devRef .tc main_arg7) by
    after_results).trans (W2_main_arg7 m ρ c)
theorem W5_main_arg7 (c : Dev nD) : W5 m ρ c (Proc.devRef .tc main_arg7) = (m ((c : Thread nD τ).loc main_arg7)) :=
  (W5_of_ne m ρ c main_arg7 (by decide)).trans (W4_main_arg7 m ρ c)
theorem W7_main_arg7 (c : Dev nD) : W7 m ρ c (Proc.devRef .tc main_arg7) = (m ((c : Thread nD τ).loc main_arg7)) :=
  (show StableHlo.after hostOps2_1 (StableHlo.after hostOps2 (W5 m ρ c)) (Proc.devRef .tc main_arg7) = W5 m ρ c (Proc.devRef .tc main_arg7) by
    after_results).trans (W5_main_arg7 m ρ c)

theorem W2_main_arg8 (c : Dev nD) : W2 m ρ c (Proc.devRef .tc main_arg8) = (m ((c : Thread nD τ).loc main_arg8)) :=
  (W2_of_ne m ρ c main_arg8 (by decide)).trans (W1_main_arg8 m ρ c)
theorem W4_main_arg8 (c : Dev nD) : W4 m ρ c (Proc.devRef .tc main_arg8) = (m ((c : Thread nD τ).loc main_arg8)) :=
  (show StableHlo.after hostOps1_1 (StableHlo.after hostOps1 (W2 m ρ c)) (Proc.devRef .tc main_arg8) = W2 m ρ c (Proc.devRef .tc main_arg8) by
    after_results).trans (W2_main_arg8 m ρ c)
theorem W5_main_arg8 (c : Dev nD) : W5 m ρ c (Proc.devRef .tc main_arg8) = (m ((c : Thread nD τ).loc main_arg8)) :=
  (W5_of_ne m ρ c main_arg8 (by decide)).trans (W4_main_arg8 m ρ c)
theorem W7_main_arg8 (c : Dev nD) : W7 m ρ c (Proc.devRef .tc main_arg8) = (m ((c : Thread nD τ).loc main_arg8)) :=
  (show StableHlo.after hostOps2_1 (StableHlo.after hostOps2 (W5 m ρ c)) (Proc.devRef .tc main_arg8) = W5 m ρ c (Proc.devRef .tc main_arg8) by
    after_results).trans (W5_main_arg8 m ρ c)

theorem W2_main_v14 (c : Dev nD) : W2 m ρ c (Proc.devRef .tc main_v14) = (scaleCol (addf (deg (m ((c : Thread nD τ).loc main_arg1))) onesN)) :=
  ((W2_arr m ρ c 3).trans (((dat0 (V1 m ρ) c).arrAt_in 3 rfl _).trans (A_eq0 (V1 m ρ) c 3))).trans (W1_main_v14 m ρ c)
theorem W4_main_v14 (c : Dev nD) : W4 m ρ c (Proc.devRef .tc main_v14) = (scaleCol (addf (deg (m ((c : Thread nD τ).loc main_arg1))) onesN)) :=
  (show StableHlo.after hostOps1_1 (StableHlo.after hostOps1 (W2 m ρ c)) (Proc.devRef .tc main_v14) = W2 m ρ c (Proc.devRef .tc main_v14) by
    after_results).trans (W2_main_v14 m ρ c)

theorem W2_main_v18 (c : Dev nD) : W2 m ρ c (Proc.devRef .tc main_v18) = (scaleCol (addf (deg (m ((c : Thread nD τ).loc main_arg2))) onesN)) :=
  (W2_of_ne m ρ c main_v18 (by decide)).trans (W1_main_v18 m ρ c)
theorem W4_main_v18 (c : Dev nD) : W4 m ρ c (Proc.devRef .tc main_v18) = (scaleCol (addf (deg (m ((c : Thread nD τ).loc main_arg2))) onesN)) :=
  (show StableHlo.after hostOps1_1 (StableHlo.after hostOps1 (W2 m ρ c)) (Proc.devRef .tc main_v18) = W2 m ρ c (Proc.devRef .tc main_v18) by
    after_results).trans (W2_main_v18 m ρ c)
theorem W5_main_v18 (c : Dev nD) : W5 m ρ c (Proc.devRef .tc main_v18) = (scaleCol (addf (deg (m ((c : Thread nD τ).loc main_arg2))) onesN)) :=
  ((W5_arr m ρ c 3).trans (((dat1 (V4 m ρ) c).arrAt_in 3 rfl _).trans (A_eq1 (V4 m ρ) c 3))).trans (W4_main_v18 m ρ c)
theorem W7_main_v18 (c : Dev nD) : W7 m ρ c (Proc.devRef .tc main_v18) = (scaleCol (addf (deg (m ((c : Thread nD τ).loc main_arg2))) onesN)) :=
  (show StableHlo.after hostOps2_1 (StableHlo.after hostOps2 (W5 m ρ c)) (Proc.devRef .tc main_v18) = W5 m ρ c (Proc.devRef .tc main_v18) by
    after_results).trans (W5_main_v18 m ρ c)

theorem W2_main_v22 (c : Dev nD) : W2 m ρ c (Proc.devRef .tc main_v22) = (scaleCol (deg (m ((c : Thread nD τ).loc main_arg1)))) :=
  (W2_of_ne m ρ c main_v22 (by decide)).trans (W1_main_v22 m ρ c)
theorem W4_main_v22 (c : Dev nD) : W4 m ρ c (Proc.devRef .tc main_v22) = (scaleCol (deg (m ((c : Thread nD τ).loc main_arg1)))) :=
  (show StableHlo.after hostOps1_1 (StableHlo.after hostOps1 (W2 m ρ c)) (Proc.devRef .tc main_v22) = W2 m ρ c (Proc.devRef .tc main_v22) by
    after_results).trans (W2_main_v22 m ρ c)
theorem W5_main_v22 (c : Dev nD) : W5 m ρ c (Proc.devRef .tc main_v22) = (scaleCol (deg (m ((c : Thread nD τ).loc main_arg1)))) :=
  (W5_of_ne m ρ c main_v22 (by decide)).trans (W4_main_v22 m ρ c)
theorem W7_main_v22 (c : Dev nD) : W7 m ρ c (Proc.devRef .tc main_v22) = (scaleCol (deg (m ((c : Thread nD τ).loc main_arg1)))) :=
  (show StableHlo.after hostOps2_1 (StableHlo.after hostOps2 (W5 m ρ c)) (Proc.devRef .tc main_v22) = W5 m ρ c (Proc.devRef .tc main_v22) by
    after_results).trans (W5_main_v22 m ρ c)

theorem W2_main_v26 (c : Dev nD) : W2 m ρ c (Proc.devRef .tc main_v26) = (scaleCol (deg (m ((c : Thread nD τ).loc main_arg2)))) :=
  (W2_of_ne m ρ c main_v26 (by decide)).trans (W1_main_v26 m ρ c)
theorem W4_main_v26 (c : Dev nD) : W4 m ρ c (Proc.devRef .tc main_v26) = (scaleCol (deg (m ((c : Thread nD τ).loc main_arg2)))) :=
  (show StableHlo.after hostOps1_1 (StableHlo.after hostOps1 (W2 m ρ c)) (Proc.devRef .tc main_v26) = W2 m ρ c (Proc.devRef .tc main_v26) by
    after_results).trans (W2_main_v26 m ρ c)
theorem W5_main_v26 (c : Dev nD) : W5 m ρ c (Proc.devRef .tc main_v26) = (scaleCol (deg (m ((c : Thread nD τ).loc main_arg2)))) :=
  (W5_of_ne m ρ c main_v26 (by decide)).trans (W4_main_v26 m ρ c)
theorem W7_main_v26 (c : Dev nD) : W7 m ρ c (Proc.devRef .tc main_v26) = (scaleCol (deg (m ((c : Thread nD τ).loc main_arg2)))) :=
  (show StableHlo.after hostOps2_1 (StableHlo.after hostOps2 (W5 m ρ c)) (Proc.devRef .tc main_v26) = W5 m ρ c (Proc.devRef .tc main_v26) by
    after_results).trans (W5_main_v26 m ρ c)
theorem W8_main_v26 (c : Dev nD) : W8 m ρ c (Proc.devRef .tc main_v26) = (scaleCol (deg (m ((c : Thread nD τ).loc main_arg2)))) :=
  (W8_of_ne m ρ c main_v26 (by decide)).trans (W7_main_v26 m ρ c)

/-! ## The three layers and the two hidden states -/

/-- Region 0 leaves the first layer's output in its output array. -/
theorem W2_main_v27 (c : Dev nD) : W2 m ρ c (Proc.devRef .tc main_v27) = (layer1 (m ((c : Thread nD τ).loc main_arg0)) (m ((c : Thread nD τ).loc main_arg1)) (m ((c : Thread nD τ).loc main_arg3)) (m ((c : Thread nD τ).loc main_arg4))) := by
  refine (W2_arr m ρ c 4).trans ((Region0.final0 (V1 m ρ) c).trans ?_)
  show GcnSpec.dense0 Ideal.tanh 64 (W1 m ρ c (Proc.devRef .tc main_arg0)) (W1 m ρ c (Proc.devRef .tc main_arg3))
    (W1 m ρ c (Proc.devRef .tc main_arg4)) (W1 m ρ c (Proc.devRef .tc main_v14)) = _
  rw [W1_main_arg0, W1_main_arg3, W1_main_arg4, W1_main_v14]
  rfl

set_option maxHeartbeats 1600000 in
/-- The host stretch after region 0: the messages summed at the receivers, plus the layer's own output. -/
theorem W4_main_v32 (c : Dev nD) : W4 m ρ c (Proc.devRef .tc main_v32) = (hidden (layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2))) := by
  show StableHlo.after hostOps1_1 (StableHlo.after hostOps1 (W2 m ρ c)) (Proc.devRef .tc main_v32) = _
  rw [KCalls.hostOps1_eq]
  unfold KCalls.takeOps0
  after_results_simp
  rw [W2_main_v27, W2_main_arg1, W2_main_arg2]
  unfold KV.hidden aggregate64 takeRows64 inRange wrapCol
  rfl

/-- Region 1 leaves the second layer's output. -/
theorem W5_main_v33 (c : Dev nD) : W5 m ρ c (Proc.devRef .tc main_v33) = (layer2 (hidden (layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2))) (m ((c : Thread nD τ).loc main_arg1)) (m ((c : Thread nD τ).loc main_arg2)) (m ((c : Thread nD τ).loc main_arg5)) (m ((c : Thread nD τ).loc main_arg6))) := by
  refine (W5_arr m ρ c 5).trans ((Region1.final1 (V4 m ρ) c).trans ?_)
  show GcnSpec.dense1 Ideal.tanh 64 (W4 m ρ c (Proc.devRef .tc main_v32)) (W4 m ρ c (Proc.devRef .tc main_arg5))
    (W4 m ρ c (Proc.devRef .tc main_arg6)) (W4 m ρ c (Proc.devRef .tc main_v18)) (W4 m ρ c (Proc.devRef .tc main_v14)) = _
  rw [W4_main_v32, W4_main_arg5, W4_main_arg6, W4_main_v18, W4_main_v14]
  rfl

set_option maxHeartbeats 1600000 in
theorem W7_main_v38 (c : Dev nD) : W7 m ρ c (Proc.devRef .tc main_v38) = (hidden (layer2 (hidden (layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2))) := by
  show StableHlo.after hostOps2_1 (StableHlo.after hostOps2 (W5 m ρ c)) (Proc.devRef .tc main_v38) = _
  rw [KCalls.hostOps2_eq]
  unfold KCalls.takeOps1
  after_results_simp
  rw [W5_main_v33, W5_main_arg1, W5_main_arg2]
  unfold KV.hidden aggregate64 takeRows64 inRange wrapCol
  rfl

/-- Region 2 leaves the third layer's output. -/
theorem W8_main_v39 (c : Dev nD) : W8 m ρ c (Proc.devRef .tc main_v39) = (layer3 (hidden (layer2 (hidden (layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg2))) (m ((c : Thread nD τ).loc main_arg1)) (m ((c : Thread nD τ).loc main_arg2)) (m ((c : Thread nD τ).loc main_arg5)) (m ((c : Thread nD τ).loc main_arg6))) (m ((c : Thread nD τ).loc main_arg1)) (m ((c : Thread nD τ).loc main_arg2))) (m ((c : Thread nD τ).loc main_arg1)) (m ((c : Thread nD τ).loc main_arg2)) (m ((c : Thread nD τ).loc main_arg7)) (m ((c : Thread nD τ).loc main_arg8))) := by
  refine (W8_arr m ρ c 5).trans ((Region2.final2 (V7 m ρ) c).trans ?_)
  show GcnSpec.dense1 id 16 (W7 m ρ c (Proc.devRef .tc main_v38)) (W7 m ρ c (Proc.devRef .tc main_arg7))
    (W7 m ρ c (Proc.devRef .tc main_arg8)) (W7 m ρ c (Proc.devRef .tc main_v18)) (W7 m ρ c (Proc.devRef .tc main_v22)) = _
  rw [W7_main_v38, W7_main_arg7, W7_main_arg8, W7_main_v18, W7_main_v22]
  rfl

set_option maxHeartbeats 1600000 in
/-- The result buffer after the last host stretch. -/
theorem value (c : Dev nD) : W10 m ρ c (Proc.devRef .tc main_v45)
    = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3_1 (StableHlo.after hostOps3 (W8 m ρ c)) (Proc.devRef .tc main_v45) = _
  rw [KCalls.hostOps3_eq]
  unfold KCalls.takeOps2
  after_results_simp
  rw [W8_main_v39, W8_main_arg1, W8_main_arg2, W8_main_v26]
  unfold kernelValue aggregate16 takeRows16 inRange wrapCol
  rfl

end Cert.KernelIdeal.KChain

end
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.LibScatterAdd.lean ====
/-
  The host's accumulating scatter (what `segment_sum` and `.at[ids].add` lower to) read at an index, over the
  extended reals, for any extents.

  `scatterAdd_rows`: rows of an [E, C] update array added into an [N, C] operand at the rows an [E, 1] column of ids
  names: entry (n, c) of the result is the operand's entry plus the sum of the updates' entries (e, c) over the e
  whose id, read as a signed word, is n.  An id outside [0, N) names no row and its update is dropped.
  `scatterAdd_vec`: the same for an [E] update vector added into an [N] operand.
-/
import Idealize.ShloMosaic.PureOps.Ideal
import Idealize.ShloMosaic.PureOps.Dims
import Idealize.ShloMosaic.Lib.ValueIdx

namespace IndexOpsLib

open Idealize.ShloMosaic Idealize.ShloMosaic.ValueIdx

theorem scatterAdd_rows {N C E w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (ix2 e (0 : Fin 1))).toInt = (n.val : Int) then upd (ix2 e c) else 0 := by
  -- update entry (e, c') lands at (n, c) exactly when its id is n and its column is c
  have hres : ∀ (e : Fin E) (c' : Fin C),
      d.resultIdx? (ix2 e c') idx = some (ix2 n c) ↔ (idx (ix2 e (0 : Fin 1))).toInt = (n.val : Int) ∧ c' = c := by
    intro e c'
    -- a scatter axis of the updates is not their window axis 1, so it is axis 0, where the index holds e
    have hsc : ∀ X : Fin 2, X ∈ d.uScatter → ((ix2 e c' : (⟨2, ![E, C]⟩ : Shape).Idx) X).val = e.val := by
      intro X hX
      have hX' : X ∉ d.updateWindowDims := by
        have := (List.mem_filter.1 hX).2
        simpa using this
      rw [huw] at hX'
      match X with
      | ⟨0, _⟩ => rfl
      | ⟨1, _⟩ => exact absurd (List.mem_singleton.mpr rfl) hX'
    -- a window axis of the updates is axis 1, where the index holds c'
    have hwin : ∀ X : Fin 2, X ∈ d.updateWindowDims → ((ix2 e c' : (⟨2, ![E, C]⟩ : Shape).Idx) X).val = c'.val := by
      intro X hX
      rw [huw] at hX
      have hX1 : X = 1 := List.mem_singleton.mp hX
      subst hX1; rfl
    -- operand axis 0 is named by the map: the window starts at the id, read signed
    have hs0 : d.start (ix2 e c') idx (0 : Fin 2) = (idx (ix2 e (0 : Fin 1))).toInt := by
      have hm : (0 : Fin 2) ∈ d.scatterDimsToOperandDims := by rw [hsd]; exact List.mem_singleton.mpr rfl
      unfold ScatterDims.start
      rw [dif_pos hm]
      congr 2
      funext b
      match b with
      | ⟨0, _⟩ =>
        unfold ScatterDims.siIdx
        rw [dif_neg (by rw [hiv]; simp)]
        unfold ScatterDims.siCoord
        apply Fin.ext
        simp only [Fin.val_cast]
        exact hsc _ (List.getElem_mem _)
      | ⟨1, _⟩ =>
        unfold ScatterDims.siIdx
        rw [dif_pos (by rw [hiv])]
        apply Fin.ext
        show List.idxOf (0 : Fin 2) d.scatterDimsToOperandDims = 0
        rw [hsd]; simp
    -- operand axis 1 is not named by the map: the window starts at 0
    have hs1 : d.start (ix2 e c') idx (1 : Fin 2) = 0 := by
      have hm : (1 : Fin 2) ∉ d.scatterDimsToOperandDims := by rw [hsd]; simp
      unfold ScatterDims.start
      rw [dif_neg hm]
    -- operand axis 0 is inserted: no window coordinate
    have hw0 : d.window (ix2 e c') (0 : Fin 2) = 0 := by
      have hk : (0 : Fin 2) ∉ d.sKept := by
        intro h
        have := (List.mem_filter.1 h).2
        rw [hiw] at this
        simp at this
      unfold ScatterDims.window
      rw [dif_neg hk]
    -- operand axis 1 is kept: the window coordinate is the update's column
    have hw1 : d.window (ix2 e c') (1 : Fin 2) = c'.val := by
      have hk : (1 : Fin 2) ∈ d.sKept := List.mem_filter.2 ⟨List.mem_finRange _, by rw [hiw]; simp⟩
      unfold ScatterDims.window
      rw [dif_pos hk]
      exact hwin _ (List.getElem_mem _)
    have hn := n.isLt
    have hc' := c'.isLt
    have hc := c.isLt
    unfold ScatterDims.resultIdx?
    constructor
    · intro h
      split at h
      · rename_i hall
        have hf := Option.some.inj h
        have h0 : (d.start (ix2 e c') idx (0 : Fin 2) + d.window (ix2 e c') (0 : Fin 2)).toNat = n.val :=
          congrArg (fun f : (⟨2, ![N, C]⟩ : Shape).Idx => (f (0 : Fin 2)).val) hf
        have h1 : (d.start (ix2 e c') idx (1 : Fin 2) + d.window (ix2 e c') (1 : Fin 2)).toNat = c.val :=
          congrArg (fun f : (⟨2, ![N, C]⟩ : Shape).Idx => (f (1 : Fin 2)).val) hf
        have ha0 := (hall 0).1
        rw [hs0, hw0] at h0 ha0
        rw [hs1, hw1] at h1
        refine ⟨by omega, Fin.ext (by omega)⟩
      · exact absurd h (by simp)
    · rintro ⟨ht, rfl⟩
      have hall : ∀ a : Fin 2, 0 ≤ d.start (ix2 e c') idx a + d.window (ix2 e c') a ∧
          d.start (ix2 e c') idx a + d.window (ix2 e c') a < (⟨2, ![N, C]⟩ : Shape).size a := by
        intro a
        match a with
        | ⟨0, _⟩ =>
          show 0 ≤ d.start (ix2 e c') idx (0 : Fin 2) + d.window (ix2 e c') (0 : Fin 2) ∧
            d.start (ix2 e c') idx (0 : Fin 2) + d.window (ix2 e c') (0 : Fin 2) < (N : Int)
          rw [hs0, hw0, ht]; omega
        | ⟨1, _⟩ =>
          show 0 ≤ d.start (ix2 e c') idx (1 : Fin 2) + d.window (ix2 e c') (1 : Fin 2) ∧
            d.start (ix2 e c') idx (1 : Fin 2) + d.window (ix2 e c') (1 : Fin 2) < (C : Int)
          rw [hs1, hw1]; omega
      rw [dif_pos hall]
      congr 1
      funext a
      match a with
      | ⟨0, _⟩ =>
        apply Fin.ext
        show (d.start (ix2 e c') idx (0 : Fin 2) + d.window (ix2 e c') (0 : Fin 2)).toNat = n.val
        rw [hs0, hw0, ht]; omega
      | ⟨1, _⟩ =>
        apply Fin.ext
        show (d.start (ix2 e c') idx (1 : Fin 2) + d.window (ix2 e c') (1 : Fin 2)).toNat = c'.val
        rw [hs1, hw1]; omega
  unfold Ideal.hostScatterAdd
  congr 1
  rw [Finset.sum_filter, sum_idx2]
  refine Finset.sum_congr rfl fun e _ => ?_
  simp only [hres]
  by_cases ht : (idx (ix2 e (0 : Fin 1))).toInt = (n.val : Int)
  · simp only [ht, true_and, if_true]
    exact Finset.sum_ite_eq' Finset.univ c (fun c' => upd (ix2 e c')) |>.trans (by simp)
  · simp only [ht, false_and, if_false, Finset.sum_const_zero]

theorem scatterAdd_vec {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e : Fin E, if (idx (ix2 e (0 : Fin 1))).toInt = (n.val : Int) then upd (ix1 e) else 0 := by
  -- update entry e lands at n exactly when its id is n
  have hres : ∀ e : Fin E,
      d.resultIdx? (ix1 e) idx = some (ix1 n) ↔ (idx (ix2 e (0 : Fin 1))).toInt = (n.val : Int) := by
    intro e
    -- the updates' one axis holds e
    have hsc : ∀ X : Fin 1, ((ix1 e : (⟨1, ![E]⟩ : Shape).Idx) X).val = e.val := fun X => by
      have hX : X = 0 := Subsingleton.elim _ _
      subst hX; rfl
    -- the operand's one axis is named by the map: the window starts at the id, read signed
    have hs0 : d.start (ix1 e) idx (0 : Fin 1) = (idx (ix2 e (0 : Fin 1))).toInt := by
      have hm : (0 : Fin 1) ∈ d.scatterDimsToOperandDims := by rw [hsd]; exact List.mem_singleton.mpr rfl
      unfold ScatterDims.start
      rw [dif_pos hm]
      congr 2
      funext b
      match b with
      | ⟨0, _⟩ =>
        unfold ScatterDims.siIdx
        rw [dif_neg (by rw [hiv]; simp)]
        unfold ScatterDims.siCoord
        apply Fin.ext
        simp only [Fin.val_cast]
        exact hsc _
      | ⟨1, _⟩ =>
        unfold ScatterDims.siIdx
        rw [dif_pos (by rw [hiv])]
        apply Fin.ext
        show List.idxOf (0 : Fin 1) d.scatterDimsToOperandDims = 0
        rw [hsd]; simp
    -- that axis is inserted: no window coordinate
    have hw0 : d.window (ix1 e) (0 : Fin 1) = 0 := by
      have hk : (0 : Fin 1) ∉ d.sKept := by
        intro h
        have := (List.mem_filter.1 h).2
        rw [hiw] at this
        simp at this
      unfold ScatterDims.window
      rw [dif_neg hk]
    have hn := n.isLt
    unfold ScatterDims.resultIdx?
    constructor
    · intro h
      split at h
      · rename_i hall
        have hf := Option.some.inj h
        have h0 : (d.start (ix1 e) idx (0 : Fin 1) + d.window (ix1 e) (0 : Fin 1)).toNat = n.val :=
          congrArg (fun f : (⟨1, ![N]⟩ : Shape).Idx => (f (0 : Fin 1)).val) hf
        have ha0 := (hall 0).1
        rw [hs0, hw0] at h0 ha0
        omega
      · exact absurd h (by simp)
    · intro ht
      have hall : ∀ a : Fin 1, 0 ≤ d.start (ix1 e) idx a + d.window (ix1 e) a ∧
          d.start (ix1 e) idx a + d.window (ix1 e) a < (⟨1, ![N]⟩ : Shape).size a := by
        intro a
        match a with
        | ⟨0, _⟩ =>
          show 0 ≤ d.start (ix1 e) idx (0 : Fin 1) + d.window (ix1 e) (0 : Fin 1) ∧
            d.start (ix1 e) idx (0 : Fin 1) + d.window (ix1 e) (0 : Fin 1) < (N : Int)
          rw [hs0, hw0, ht]; omega
      rw [dif_pos hall]
      congr 1
      funext a
      match a with
      | ⟨0, _⟩ =>
        apply Fin.ext
        show (d.start (ix1 e) idx (0 : Fin 1) + d.window (ix1 e) (0 : Fin 1)).toNat = n.val
        rw [hs0, hw0, ht]; omega
  -- a rank-1 index is its one coordinate
  let eqv : Fin E ≃ (⟨1, ![E]⟩ : Shape).Idx :=
    { toFun := ix1, invFun := fun j => j 0, left_inv := fun _ => rfl, right_inv := fun j => (eq_ix1 j).symm }
  unfold Ideal.hostScatterAdd
  congr 1
  rw [Finset.sum_filter, ← Equiv.sum_comp eqv]
  refine Finset.sum_congr rfl fun e _ => ?_
  show (if d.resultIdx? (ix1 e) idx = some (ix1 n) then upd (ix1 e) else 0) = _
  simp only [hres]

end IndexOpsLib
-- ==== Proof.SegmentLaws.lean ====
/-
  The reference's edge aggregation against the kernel program's, on whole arrays, over the extended reals.

  The reference appends the self edges (n, n), n < N, to the edge list and scatter-adds over all 1,100,000 edges; the
  kernel program scatter-adds over the 1,000,000 real edges and adds the self term afterwards.  A sum over the appended
  list splits into the sum over the real edges and the sum over the self edges, and of the self edges exactly one, edge
  n, lands on node n: so a degree count gains 1 and an aggregation gains the node's own row.  Addition of extended
  reals is commutative and associative, so the regrouping is exact.
  The reference reads row s(e) by an indexing that clamps an out-of-range id, the kernel program by one that fills an
  out-of-range row with a not-a-number pattern: for ids in [0, N) both read row s(e).
-/
import proofs.«416693_j5531917877789_3_alg».proof.Proof.Gen.KernelIdeal
import proofs.«416693_j5531917877789_3_alg».proof.Proof.Gen.ReferenceIdeal
import proofs.«416693_j5531917877789_3_alg».proof.Proof.KTerms
import proofs.«416693_j5531917877789_3_alg».proof.Proof.LibGather2
import proofs.«416693_j5531917877789_3_alg».proof.Proof.LibScatterAdd
import Idealize.ShloMosaic.Lib.ValueIdx
import Idealize.ShloMosaic.Lib.ValueLayout
import Idealize.ShloMosaic.Lib.Pipeline.Value
import Idealize.ShloMosaic.Lib.StableHlo.Predicate

noncomputable section

namespace Cert.Bridge

open Idealize.ShloMosaic

/-! ### Reads at an index, for any extents -/

open Idealize.ShloMosaic.ValueIdx

/-- An [n] vector laid out as an [n, 1] column reads, at (e, 0), the vector at e. -/
theorem bcast_col {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  simp only [broadcastInDim]
  congr 1
  funext a
  match a with
  | ⟨0, _⟩ =>
    apply Fin.ext
    have he := e.isLt
    split
    · next h1 => change n = 1 at h1; show (0 : Nat) = e.val; omega
    · rfl

/-- A sum over a + b terms whose last b terms pick out exactly the term k = n: the first a terms, plus that one. -/
theorem count_self {M : Type} [AddCommMonoid M] {a b N : Nat} (hN : a + b = N) (z o : M) (g : Fin N → Int)
    (g₁ : Fin a → Int) (n : Fin b) (hg₁ : ∀ e : Fin a, g ⟨e.val, by omega⟩ = g₁ e)
    (hg : ∀ k : Fin b, g ⟨a + k.val, by omega⟩ = (k.val : Int)) :
    z + ∑ e : Fin N, (if g e = (n.val : Int) then o else 0)
      = (z + ∑ e : Fin a, if g₁ e = (n.val : Int) then o else 0) + o := by
  subst hN
  rw [Fin.sum_univ_add, ← add_assoc]
  have hk : ∀ k : Fin b, (if g (Fin.natAdd a k) = (n.val : Int) then o else 0) = if k = n then o else 0 := by
    intro k
    refine if_congr ?_ rfl rfl
    rw [show g (Fin.natAdd a k) = (k.val : Int) from hg k]
    constructor
    · intro h; exact Fin.ext (by omega)
    · intro h; rw [h]
  have he : ∀ e : Fin a, (if g (Fin.castAdd b e) = (n.val : Int) then o else 0) = if g₁ e = (n.val : Int) then o else 0 := by
    intro e
    rw [show g (Fin.castAdd b e) = g₁ e from hg₁ e]
  rw [Finset.sum_congr rfl (fun k _ => hk k), Finset.sum_congr rfl (fun e _ => he e)]
  rw [(Finset.sum_ite_eq' Finset.univ n (fun _ => o)).trans (if_pos (Finset.mem_univ n))]

/-- An [n] vector laid along the rows of an [n, m] rectangle reads, at (e, c), the vector at e. -/
theorem bcast_rowsel {α : Type} {n m : Nat} (h : (⟨1, ![n]⟩ : Shape).BroadcastsInDim ⟨2, ![n, m]⟩ ![0])
    (v : (⟨1, ![n]⟩ : Shape).Idx → α) (e : Fin n) (c : Fin m) :
    broadcastInDim ⟨2, ![n, m]⟩ ![0] h v (ix2 e c) = v (ix1 e) := by
  simp only [broadcastInDim]
  congr 1
  funext a
  match a with
  | ⟨0, _⟩ =>
    apply Fin.ext
    have he := e.isLt
    split
    · next h1 => change n = 1 at h1; show (0 : Nat) = e.val; omega
    · rfl

/-- A reduce-and over the length-one second axis of an [n, 1] column reads, at e, the column's bit at (e, 0) and the
    initial bit. -/
theorem reduce_and_col {n : Nat} (x : IVec ⟨2, ![n, 1]⟩ 1) (init : IVec ⟨0, ![]⟩ 1)
    (h : (⟨2, ![n, 1]⟩ : Shape).ReducesTo [1] ⟨1, ![n]⟩) (hu : 0 < (⟨0, ![]⟩ : Shape).numel) (e : Fin n) :
    Host.reduce IntOp.andi x init h hu (ix1 e) = IntOp.andi (x (ix2 e (0 : Fin 1))) (init (Shape.Idx.first hu)) := by
  rw [Host.reduce_eq_fold]
  have hset : (Finset.univ.filter fun i : (⟨2, ![n, 1]⟩ : Shape).Idx => h.drop i = ix1 e) = {ix2 e (0 : Fin 1)} := by
    ext i
    simp only [Finset.mem_filter, Finset.mem_univ, true_and, Finset.mem_singleton]
    constructor
    · intro hi
      funext a
      match a with
      | ⟨0, _⟩ =>
        apply Fin.ext
        have := congrArg (fun f : (⟨1, ![n]⟩ : Shape).Idx => (f 0).val) hi
        exact this
      | ⟨1, _⟩ =>
        apply Fin.ext
        have h1 := idx2_lt1 i
        show (i 1).val = 0
        omega
    · intro hi
      subst hi
      funext b
      match b with
      | ⟨0, _⟩ => rfl
  rw [hset, Finset.fold_singleton]

/-- A scatter-add of a constant into a constant at the ids of an [E, 1] column, read at n: the operand's constant plus the
    update's constant once for every e whose id, read signed, is n. -/
theorem scatter_count {N E : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (hz : (⟨0, ![]⟩ : Shape).BroadcastsInDim ⟨1, ![N]⟩ ![]) (hc : (⟨1, ![E]⟩ : Shape).BroadcastsInDim ⟨2, ![E, 1]⟩ ![0])
    (ho : (⟨0, ![]⟩ : Shape).BroadcastsInDim ⟨1, ![E]⟩ ![]) (z o : BitVec 32) (ids : IVec ⟨1, ![E]⟩ 32) (n : Fin N) :
    Host.scatterAdd (F := Ideal) d (broadcastInDim ⟨1, ![N]⟩ ![] hz (constant ⟨0, ![]⟩ .f32 z))
        (broadcastInDim ⟨2, ![E, 1]⟩ ![0] hc ids) (broadcastInDim ⟨1, ![E]⟩ ![] ho (constant ⟨0, ![]⟩ .f32 o)) (ix1 n)
      = Ideal.ofBits .f32 z + ∑ e : Fin E, if (ids (ix1 e)).toInt = (n.val : Int) then Ideal.ofBits .f32 o else 0 := by
  show Ideal.hostScatterAdd _ _ _ _ (ix1 n) = _
  rw [IndexOpsLib.scatterAdd_vec d huw hiw hsd hiv]
  refine congrArg (fun t => _ + t) (Finset.sum_congr rfl fun e _ => ?_)
  rw [bcast_col]
  rfl

/-! ### The appended edge list -/

/-- The ids followed by 0, 1, …, N − 1: the reference's edge list with the self edges appended. -/
abbrev catIds (ids : IVec Cert.ReferenceIdeal.S1000000 32) : IVec Cert.ReferenceIdeal.S1100000 32 :=
  concatenate Cert.ReferenceIdeal.S1100000 0
    [⟨Cert.ReferenceIdeal.S1000000, ids⟩, ⟨Cert.ReferenceIdeal.S100000, iotaInDim Cert.ReferenceIdeal.S100000 32 0⟩]
    Cert.ReferenceIdeal.Facts₀.concatenates_S1000000_S100000_S1100000_d0

/-- Below the number of real edges the appended list reads the ids. -/
theorem catIds_left (ids : IVec Cert.ReferenceIdeal.S1000000 32) (e : Fin 1000000) :
    catIds ids (ix1 (⟨e.val, by omega⟩ : Fin 1100000)) = ids (ix1 e) := by
  refine concatenate_pair_apply_left (t := Cert.ReferenceIdeal.S1100000) (s₁ := Cert.ReferenceIdeal.S1000000)
    (s₂ := Cert.ReferenceIdeal.S100000) 0 ids _ _ _ rfl (ix1 e) ?_
  intro b
  match b with
  | ⟨0, _⟩ => rfl

/-- Past the real edges the appended list reads the position, counted from there. -/
theorem catIds_right (ids : IVec Cert.ReferenceIdeal.S1000000 32) (k : Fin 100000) :
    catIds ids (ix1 (⟨1000000 + k.val, by omega⟩ : Fin 1100000)) = BitVec.ofNat 32 k.val := by
  refine (concatenate_pair_apply_right (t := Cert.ReferenceIdeal.S1100000) (s₁ := Cert.ReferenceIdeal.S1000000)
    (s₂ := Cert.ReferenceIdeal.S100000) 0 ids _ _ _ rfl rfl (ix1 k) ?_ ?_).trans rfl
  · intro b hb
    match b with
    | ⟨0, _⟩ => exact absurd rfl hb
  · show k.val + 1000000 = 1000000 + k.val
    omega

/-! ### The degree count with the self edges -/

/-- Counting over the appended list is counting over the real edges, plus one. -/
theorem deg_self (ids : IVec Cert.ReferenceIdeal.S1000000 32) :
    Host.scatterAdd (F := Ideal) Cert.ReferenceIdeal.scatter_S100000_S1100000x1_S1100000_n_0_0_1
      (broadcastInDim Cert.ReferenceIdeal.S100000 ![] Cert.ReferenceIdeal.Facts₀.bcast_S_S100000 (constant Cert.ReferenceIdeal.S_ .f32 0x00000000#32))
      (broadcastInDim Cert.ReferenceIdeal.S1100000x1 ![0] Cert.ReferenceIdeal.Facts₀.bcast_S1100000_S1100000x1_0 (catIds ids))
      (broadcastInDim Cert.ReferenceIdeal.S1100000 ![] Cert.ReferenceIdeal.Facts₀.bcast_S_S1100000 (constant Cert.ReferenceIdeal.S_ .f32 0x3F800000#32))
    = addf (Cert.KernelIdeal.KV.deg ids) Cert.KernelIdeal.KV.onesN := by
  funext i
  obtain ⟨n, rfl⟩ : ∃ n : Fin 100000, i = ix1 n := ⟨i 0, eq_ix1 i⟩
  rw [addf_apply]
  -- the kernel program's count at node n, over the real edges
  have hK : Cert.KernelIdeal.KV.deg ids (ix1 n)
      = Ideal.ofBits .f32 0x00000000#32
        + ∑ e : Fin 1000000, if (ids (ix1 e)).toInt = (n.val : Int) then Ideal.ofBits .f32 0x3F800000#32 else 0 :=
    scatter_count _ rfl rfl rfl rfl _ _ _ _ _ ids n
  have hone : Cert.KernelIdeal.KV.onesN (ix1 n) = Ideal.ofBits .f32 0x3F800000#32 := rfl
  rw [hK, hone]
  -- the reference's count at node n, over the appended list
  refine (scatter_count _ rfl rfl rfl rfl _ _ _ _ _ (catIds ids) n).trans ?_
  have hN : 1000000 + 100000 = 1100000 := by norm_num
  refine count_self hN _ _ (fun e => (catIds ids (ix1 e)).toInt) (fun e => (ids (ix1 e)).toInt) n ?_ ?_
  · intro e
    show (catIds ids (ix1 (⟨e.val, _⟩ : Fin 1100000))).toInt = (ids (ix1 e)).toInt
    rw [catIds_left]
  · intro k
    show (catIds ids (ix1 (⟨1000000 + k.val, _⟩ : Fin 1100000))).toInt = (k.val : Int)
    rw [catIds_right]
    exact StableHlo.Predicate.toInt_ofNat_small k.val (by have := k.isLt; omega)

/-! ### The aggregation without self edges -/

/-- A nonnegative id is not shifted. -/
theorem wrap_nonneg (v : BitVec 32) (hv : 0 ≤ v.toInt) :
    Scalar.select (IntOp.cmpi .slt v 0#32) (IntOp.addi v 100000#32) v = v := by
  have hc : IntOp.cmpi .slt v 0#32 = 0#1 := by
    show BitVec.ofBool (v.slt 0#32) = 0#1
    have hb : v.slt 0#32 = false := by
      unfold BitVec.slt
      simp only [BitVec.toInt_zero, decide_eq_false_iff_not, not_lt]
      exact hv
    rw [hb]; rfl
  rw [hc]; exact select_zero _ _

/-- For an id in [0, N) the shifted id is the id. -/
theorem wrapCol_read (s : IVec Cert.ReferenceIdeal.S1000000 32) (e : Fin 1000000) (hv : 0 ≤ (s (ix1 e)).toInt) :
    Cert.KernelIdeal.KV.wrapCol s (ix2 e (0 : Fin 1)) = s (ix1 e) := by
  unfold Cert.KernelIdeal.KV.wrapCol
  rw [bcast_col]
  exact wrap_nonneg _ hv

/-- For an id in [0, N) the range test holds. -/
theorem inRange_true (s : IVec Cert.ReferenceIdeal.S1000000 32) (e : Fin 1000000)
    (hv : 0 ≤ (s (ix1 e)).toInt ∧ (s (ix1 e)).toInt < 100000) :
    Cert.KernelIdeal.KV.inRange s (ix1 e) = 1#1 := by
  unfold Cert.KernelIdeal.KV.inRange
  rw [reduce_and_col]
  show IntOp.andi (IntOp.andi (IntOp.cmpi .sge (Cert.KernelIdeal.KV.wrapCol s (ix2 e (0 : Fin 1))) 0#32)
    (IntOp.cmpi .sle (Cert.KernelIdeal.KV.wrapCol s (ix2 e (0 : Fin 1))) 99999#32)) 1#1 = 1#1
  rw [wrapCol_read s e hv.1]
  have h1 : IntOp.cmpi .sge (s (ix1 e)) 0#32 = 1#1 := by
    show BitVec.ofBool ((0#32).sle (s (ix1 e))) = 1#1
    have hb : (0#32).sle (s (ix1 e)) = true := by
      unfold BitVec.sle
      simp only [BitVec.toInt_zero, decide_eq_true_eq]
      exact hv.1
    rw [hb]; rfl
  have h2 : IntOp.cmpi .sle (s (ix1 e)) 99999#32 = 1#1 := by
    show BitVec.ofBool ((s (ix1 e)).sle 99999#32) = 1#1
    have h9 : (99999#32 : BitVec 32).toInt = 99999 := by decide
    have hb : (s (ix1 e)).sle 99999#32 = true := by
      unfold BitVec.sle
      simp only [h9, decide_eq_true_eq]
      omega
    rw [hb]; rfl
  rw [h1, h2]; rfl

/-- Without self edges the two aggregations differ only in how a row is read, and agree for ids in range. -/
theorem agg_plain (s r : IVec Cert.ReferenceIdeal.S1000000 32)
    (hs : ∀ e : Cert.ReferenceIdeal.S1000000.Idx, 0 ≤ (s e).toInt ∧ (s e).toInt < 100000)
    (Y : FVec Ideal Cert.ReferenceIdeal.S100000x16 .f32) :
    Host.scatterAdd (F := Ideal) Cert.ReferenceIdeal.scatter_S100000x16_S1000000x1_S1000000x16_1_0_0_1
      (broadcastInDim Cert.ReferenceIdeal.S100000x16 ![] Cert.ReferenceIdeal.Facts₀.bcast_S_S100000x16 (constant Cert.ReferenceIdeal.S_ .f32 0x00000000#32))
      (broadcastInDim Cert.ReferenceIdeal.S1000000x1 ![0] Cert.ReferenceIdeal.Facts₀.bcast_S1000000_S1000000x1_0 r)
      (Host.gather Cert.ReferenceIdeal.gather_S100000x16_S1000000x1_S1000000x16_1_0_n_n_0_1_116 Y
        (broadcastInDim Cert.ReferenceIdeal.S1000000x1 ![0] Cert.ReferenceIdeal.Facts₀.bcast_S1000000_S1000000x1_0
          (select (cmpi .slt s (broadcastInDim Cert.ReferenceIdeal.S1000000 ![] Cert.ReferenceIdeal.Facts₀.bcast_S_S1000000 (constantI Cert.ReferenceIdeal.S_ 32 0#32)))
            (addi s (broadcastInDim Cert.ReferenceIdeal.S1000000 ![] Cert.ReferenceIdeal.Facts₀.bcast_S_S1000000 (constantI Cert.ReferenceIdeal.S_ 32 100000#32)))
            s)))
    = Cert.KernelIdeal.KV.aggregate16 Y s r := by
  -- the two update arrays agree entry by entry: the range test holds, so the kernel program's fill is never taken
  have hU : Host.gather Cert.ReferenceIdeal.gather_S100000x16_S1000000x1_S1000000x16_1_0_n_n_0_1_116 Y
        (broadcastInDim Cert.ReferenceIdeal.S1000000x1 ![0] Cert.ReferenceIdeal.Facts₀.bcast_S1000000_S1000000x1_0
          (select (cmpi .slt s (broadcastInDim Cert.ReferenceIdeal.S1000000 ![] Cert.ReferenceIdeal.Facts₀.bcast_S_S1000000 (constantI Cert.ReferenceIdeal.S_ 32 0#32)))
            (addi s (broadcastInDim Cert.ReferenceIdeal.S1000000 ![] Cert.ReferenceIdeal.Facts₀.bcast_S_S1000000 (constantI Cert.ReferenceIdeal.S_ 32 100000#32)))
            s))
      = Cert.KernelIdeal.KV.takeRows16 Y s := by
    funext i
    obtain ⟨e, c, rfl⟩ : ∃ (e : Fin 1000000) (c : Fin 16), i = ix2 e c := ⟨i 0, i 1, eq_ix2 i⟩
    unfold Cert.KernelIdeal.KV.takeRows16
    rw [select_apply, bcast_rowsel, inRange_true s e (hs (ix1 e)), select_one]
    rfl
  rw [hU]
  rfl

/-! ### The degree count without self edges -/

/-- The plain degree count is the same scatter-add in both programs. -/
theorem deg_plain (ids : IVec Cert.ReferenceIdeal.S1000000 32) :
    Host.scatterAdd (F := Ideal) Cert.ReferenceIdeal.scatter_S100000_S1000000x1_S1000000_n_0_0_1
      (broadcastInDim Cert.ReferenceIdeal.S100000 ![] Cert.ReferenceIdeal.Facts₀.bcast_S_S100000 (constant Cert.ReferenceIdeal.S_ .f32 0x00000000#32))
      (broadcastInDim Cert.ReferenceIdeal.S1000000x1 ![0] Cert.ReferenceIdeal.Facts₀.bcast_S1000000_S1000000x1_0 ids)
      (broadcastInDim Cert.ReferenceIdeal.S1000000 ![] Cert.ReferenceIdeal.Facts₀.bcast_S_S1000000 (constant Cert.ReferenceIdeal.S_ .f32 0x3F800000#32))
    = Cert.KernelIdeal.KV.deg ids := by
  rfl

end Cert.Bridge

end
-- ==== Proof.SegmentSelf.lean ====
/-
  The reference's aggregation over the edge list with the self edges appended, against the kernel program's
  aggregation over the real edges plus the node's own row, on whole arrays, over the extended reals.

  The scatter-add over the 1,100,000 appended edges splits into the sum over the first 1,000,000 (the real edges) and
  the sum over the last 100,000 (the self edges n → n); of the self edges exactly edge n lands on node n, and it
  carries row n of the table.  For sender ids in [0, N) the reference's clamping read and the kernel program's
  filling read both return row s(e).
-/
import proofs.«416693_j5531917877789_3_alg».proof.Proof.SegmentLaws

noncomputable section

namespace Cert.Bridge

open Idealize.ShloMosaic Idealize.ShloMosaic.ValueIdx

/-- A vector kept as an [n, 1] column reads, at any index, the vector at the index's row. -/
theorem col_apply {α : Type} {n : Nat} (h : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h v i = v (ix1 (i 0)) := by
  simp only [broadcastInDim]
  congr 1
  funext a
  match a with
  | ⟨0, _⟩ =>
    apply Fin.ext
    have he := idx2_lt0 i
    split
    · next h1 => change n = 1 at h1; show (0 : Nat) = (i 0).val; omega
    · rfl

/-- The same at row e of the column. -/
theorem col_apply' {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) :=
  col_apply h v _

/-- The appended list reads the given ids below the first extent. -/
theorem catIds_lo (ids : IVec Cert.ReferenceIdeal.S1000000 32) (e : Fin 1100000) (h : e.val < 1000000) :
    catIds ids (ix1 e) = ids (ix1 ⟨e.val, h⟩) :=
  concatenate_pair_apply_left (0 : Fin 1) ids (iotaInDim Cert.ReferenceIdeal.S100000 32 0) _ (ix1 e) rfl (ix1 ⟨e.val, h⟩)
    (fun b => by match b with | ⟨0, _⟩ => rfl)

/-- The appended list reads the position, counted from the first extent, at and past it. -/
theorem catIds_hi (ids : IVec Cert.ReferenceIdeal.S1000000 32) (e : Fin 1100000) (h : 1000000 ≤ e.val) :
    catIds ids (ix1 e) = BitVec.ofNat 32 (e.val - 1000000) := by
  have hlt : e.val - 1000000 < 100000 := by have := e.isLt; omega
  have := concatenate_pair_apply_right (0 : Fin 1) ids (iotaInDim Cert.ReferenceIdeal.S100000 32 0)
    Cert.ReferenceIdeal.Facts₀.concatenates_S1000000_S100000_S1100000_d0 (ix1 e) rfl rfl (ix1 ⟨e.val - 1000000, hlt⟩)
    (fun b hb => absurd (Subsingleton.elim _ _) hb) (by show e.val - 1000000 + 1000000 = e.val; omega)
  exact this.trans rfl

/-- The id a read uses: a negative id is shifted by the number of rows first. -/
def wrapId (v : BitVec 32) : BitVec 32 :=
  Scalar.select (IntOp.cmpi .slt v 0#32) (IntOp.addi v 100000#32) v

/-- A non-negative id is not shifted. -/
theorem wrapId_of_nonneg (v : BitVec 32) (h : 0 ≤ v.toInt) : wrapId v = v := by
  have h0 : (0#32 : BitVec 32).toInt = 0 := by decide
  have hc : ¬ IntOp.cmpi .slt v 0#32 = 1#1 := by
    rw [IntOp.cmpi_slt, h0]; omega
  exact if_neg hc

/-- A left fold by and over one-bit words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 (f a) = 1#1 := by rw [hf a]; decide
    rw [List.foldl_cons, h11]
    exact foldl_andi_one f hf l

/-- The kernel program's shifted id column at an index. -/
theorem wrapCol_apply (s : IVec Cert.ReferenceIdeal.S1000000 32) (i : Cert.ReferenceIdeal.S1000000x1.Idx) :
    Cert.KernelIdeal.KV.wrapCol s i = wrapId (s (ix1 (i 0))) :=
  (col_apply _ _ i).trans rfl

/-- Every id in [0, N) passes the kernel program's range test. -/
theorem inRange_one (s : IVec Cert.ReferenceIdeal.S1000000 32)
    (hs : ∀ e : Cert.ReferenceIdeal.S1000000.Idx, 0 ≤ (s e).toInt ∧ (s e).toInt < 100000)
    (j : Cert.ReferenceIdeal.S1000000.Idx) : Cert.KernelIdeal.KV.inRange s j = 1#1 := by
  unfold Cert.KernelIdeal.KV.inRange
  rw [Host.reduce_eq_foldl]
  refine foldl_andi_one _ (fun i => ?_) _
  have h0 : (0#32 : BitVec 32).toInt = 0 := by decide
  have h9 : (99999#32 : BitVec 32).toInt = 99999 := by decide
  have hw := wrapCol_apply s i
  rw [wrapId_of_nonneg _ (hs _).1] at hw
  show IntOp.andi (IntOp.cmpi .sge (Cert.KernelIdeal.KV.wrapCol s i) 0#32)
    (IntOp.cmpi .sle (Cert.KernelIdeal.KV.wrapCol s i) 99999#32) = 1#1
  rw [hw, IntOp.andi_eq_one, IntOp.cmpi_sge, IntOp.cmpi_sle, h0, h9]
  have := hs (ix1 (i 0))
  omega

/-- For ids in [0, N) the kernel program's filling read returns the table's row at the (shifted, clamped) id. -/
theorem takeRows64_apply (Y : FVec Ideal Cert.ReferenceIdeal.S100000x64 .f32) (s : IVec Cert.ReferenceIdeal.S1000000 32)
    (hs : ∀ e : Cert.ReferenceIdeal.S1000000.Idx, 0 ≤ (s e).toInt ∧ (s e).toInt < 100000)
    (e : Fin 1000000) (c : Fin 64) :
    Cert.KernelIdeal.KV.takeRows64 Y s (ix2 e c)
      = Y (ix2 (IndexOpsLib.clampRow 100000 (by decide) (wrapId (s (ix1 e)))) c) := by
  unfold Cert.KernelIdeal.KV.takeRows64
  rw [select_apply]
  have hb : broadcastInDim Cert.KernelIdeal.S1000000x64 ![0] Cert.KernelIdeal.Facts₀.bcast_S1000000_S1000000x64_0
      (Cert.KernelIdeal.KV.inRange s) (ix2 e c) = 1#1 := inRange_one s hs _
  rw [hb, select_one, IndexOpsLib.gather_rows (by decide) _ rfl rfl rfl rfl rfl, wrapCol_apply]

/-- The reference's clamping read returns the table's row at the (shifted, clamped) id of the appended list. -/
theorem refRows_apply (Y : FVec Ideal Cert.ReferenceIdeal.S100000x64 .f32) (s : IVec Cert.ReferenceIdeal.S1000000 32)
    (e : Fin 1100000) (c : Fin 64) :
    Host.gather Cert.ReferenceIdeal.gather_S100000x64_S1100000x1_S1100000x64_1_0_n_n_0_1_164 Y
        (broadcastInDim Cert.ReferenceIdeal.S1100000x1 ![0] Cert.ReferenceIdeal.Facts₀.bcast_S1100000_S1100000x1_0
          (select (cmpi .slt (catIds s) (broadcastInDim Cert.ReferenceIdeal.S1100000 ![] Cert.ReferenceIdeal.Facts₀.bcast_S_S1100000 (constantI Cert.ReferenceIdeal.S_ 32 0#32)))
            (addi (catIds s) (broadcastInDim Cert.ReferenceIdeal.S1100000 ![] Cert.ReferenceIdeal.Facts₀.bcast_S_S1100000 (constantI Cert.ReferenceIdeal.S_ 32 100000#32)))
            (catIds s))) (ix2 e c)
      = Y (ix2 (IndexOpsLib.clampRow 100000 (by decide) (wrapId (catIds s (ix1 e)))) c) := by
  rw [IndexOpsLib.gather_rows (by decide) _ rfl rfl rfl rfl rfl, col_apply']
  rfl

/-- A small position as a word, shifted and clamped, names its own row. -/
theorem clampRow_self (k : Fin 100000) :
    IndexOpsLib.clampRow 100000 (by decide) (wrapId (BitVec.ofNat 32 k.val)) = k := by
  have hk := k.isLt
  have hi : (BitVec.ofNat 32 k.val).toInt = (k.val : Int) :=
    StableHlo.Predicate.toInt_ofNat_small k.val (by omega)
  rw [wrapId_of_nonneg _ (by rw [hi]; omega)]
  apply Fin.ext
  show min (BitVec.ofNat 32 k.val).toInt.toNat (100000 - 1) = k.val
  rw [hi]
  omega

/-- Extent-generic: a scatter-add of rows over E + N edges, of which the last N are the self edges k → k carrying
    row k of a table, is the scatter-add over the first E edges plus the table.  The sum over the edges splits at E;
    of the self edges exactly edge n lands on row n. -/
theorem scatter_self {N C E T : Nat} (hT : T = E + N)
    (d1 : ScatterDims ⟨2, ![N, C]⟩ ⟨2, ![T, 1]⟩ ⟨2, ![T, C]⟩)
    (huw1 : d1.updateWindowDims = [1]) (hiw1 : d1.insertedWindowDims = [0]) (hsd1 : d1.scatterDimsToOperandDims = [0])
    (hiv1 : d1.indexVectorDim = 1)
    (d2 : ScatterDims ⟨2, ![N, C]⟩ ⟨2, ![E, 1]⟩ ⟨2, ![E, C]⟩)
    (huw2 : d2.updateWindowDims = [1]) (hiw2 : d2.insertedWindowDims = [0]) (hsd2 : d2.scatterDimsToOperandDims = [0])
    (hiv2 : d2.indexVectorDim = 1)
    (x : FVec Ideal ⟨2, ![N, C]⟩ .f32)
    (idx1 : IVec ⟨2, ![T, 1]⟩ 32) (upd1 : FVec Ideal ⟨2, ![T, C]⟩ .f32)
    (idx2 : IVec ⟨2, ![E, 1]⟩ 32) (upd2 : FVec Ideal ⟨2, ![E, C]⟩ .f32)
    (Y : FVec Ideal ⟨2, ![N, C]⟩ .f32)
    (hlo : ∀ (e' : Fin T) (e : Fin E), e'.val = e.val → idx1 (ix2 e' (0 : Fin 1)) = idx2 (ix2 e (0 : Fin 1)))
    (hloU : ∀ (e' : Fin T) (e : Fin E), e'.val = e.val → ∀ c : Fin C, upd1 (ix2 e' c) = upd2 (ix2 e c))
    (hhi : ∀ (e' : Fin T) (k : Fin N), e'.val = E + k.val → (idx1 (ix2 e' (0 : Fin 1))).toInt = (k.val : Int))
    (hhiU : ∀ (e' : Fin T) (k : Fin N), e'.val = E + k.val → ∀ c : Fin C, upd1 (ix2 e' c) = Y (ix2 k c)) :
    Host.scatterAdd (F := Ideal) d1 x idx1 upd1 = addf (Host.scatterAdd (F := Ideal) d2 x idx2 upd2) Y := by
  subst hT
  funext i
  obtain ⟨n, c, rfl⟩ : ∃ (n : Fin N) (c : Fin C), i = ix2 n c := ⟨i 0, i 1, eq_ix2 i⟩
  rw [addf_apply]
  show Ideal.hostScatterAdd d1 x idx1 upd1 (ix2 n c) = Ideal.hostScatterAdd d2 x idx2 upd2 (ix2 n c) + Y (ix2 n c)
  rw [IndexOpsLib.scatterAdd_rows d1 huw1 hiw1 hsd1 hiv1, IndexOpsLib.scatterAdd_rows d2 huw2 hiw2 hsd2 hiv2,
    Fin.sum_univ_add, add_assoc]
  congr 1
  congr 1
  · refine Finset.sum_congr rfl fun e _ => ?_
    rw [hlo (Fin.castAdd N e) e rfl, hloU (Fin.castAdd N e) e rfl c]
  · refine (Finset.sum_congr rfl fun k _ => ?_).trans
      ((Finset.sum_ite_eq' Finset.univ n fun k => Y (ix2 k c)).trans (if_pos (Finset.mem_univ n)))
    rw [hhi (Fin.natAdd E k) k rfl, hhiU (Fin.natAdd E k) k rfl c]
    by_cases hkn : k = n
    · rw [if_pos hkn, if_pos (by rw [hkn])]
    · rw [if_neg hkn, if_neg (fun h => hkn (Fin.ext (by exact_mod_cast h)))]

/-- Aggregating over the appended list is aggregating over the real edges, plus the node's own row. -/
theorem agg_self (s r : IVec Cert.ReferenceIdeal.S1000000 32)
    (hs : ∀ e : Cert.ReferenceIdeal.S1000000.Idx, 0 ≤ (s e).toInt ∧ (s e).toInt < 100000)
    (Y : FVec Ideal Cert.ReferenceIdeal.S100000x64 .f32) :
    Host.scatterAdd (F := Ideal) Cert.ReferenceIdeal.scatter_S100000x64_S1100000x1_S1100000x64_1_0_0_1
      (broadcastInDim Cert.ReferenceIdeal.S100000x64 ![] Cert.ReferenceIdeal.Facts₀.bcast_S_S100000x64 (constant Cert.ReferenceIdeal.S_ .f32 0x00000000#32))
      (broadcastInDim Cert.ReferenceIdeal.S1100000x1 ![0] Cert.ReferenceIdeal.Facts₀.bcast_S1100000_S1100000x1_0 (catIds r))
      (Host.gather Cert.ReferenceIdeal.gather_S100000x64_S1100000x1_S1100000x64_1_0_n_n_0_1_164 Y
        (broadcastInDim Cert.ReferenceIdeal.S1100000x1 ![0] Cert.ReferenceIdeal.Facts₀.bcast_S1100000_S1100000x1_0
          (select (cmpi .slt (catIds s) (broadcastInDim Cert.ReferenceIdeal.S1100000 ![] Cert.ReferenceIdeal.Facts₀.bcast_S_S1100000 (constantI Cert.ReferenceIdeal.S_ 32 0#32)))
            (addi (catIds s) (broadcastInDim Cert.ReferenceIdeal.S1100000 ![] Cert.ReferenceIdeal.Facts₀.bcast_S_S1100000 (constantI Cert.ReferenceIdeal.S_ 32 100000#32)))
            (catIds s))))
    = Cert.KernelIdeal.KV.hidden Y s r := by
  unfold Cert.KernelIdeal.KV.hidden Cert.KernelIdeal.KV.aggregate64
  refine scatter_self (N := 100000) (C := 64) (E := 1000000) (T := 1100000) (by decide)
    Cert.ReferenceIdeal.scatter_S100000x64_S1100000x1_S1100000x64_1_0_0_1 rfl rfl rfl rfl
    Cert.KernelIdeal.scatter_S100000x64_S1000000x1_S1000000x64_1_0_0_1 rfl rfl rfl rfl
    _ _ _ _ _ Y ?_ ?_ ?_ ?_
  · -- a real edge's receiver: both lists read the edge's own id
    intro e' e h
    have hlt : e'.val < 1000000 := by have := e.isLt; omega
    have he : (⟨e'.val, hlt⟩ : Fin 1000000) = e := Fin.ext h
    rw [col_apply', col_apply', catIds_lo r e' hlt, he]
  · -- a real edge's row: for a sender in [0, N) the clamping read and the filling read return the same row
    intro e' e h c
    have hlt : e'.val < 1000000 := by have := e.isLt; omega
    have he : (⟨e'.val, hlt⟩ : Fin 1000000) = e := Fin.ext h
    rw [refRows_apply, takeRows64_apply Y s hs e c, catIds_lo s e' hlt, he]
  · -- self edge k is received by node k
    intro e' k h
    have hk := k.isLt
    have hsub : e'.val - 1000000 = k.val := by omega
    rw [col_apply', catIds_hi r e' (by omega), hsub]
    exact StableHlo.Predicate.toInt_ofNat_small k.val (by omega)
  · -- self edge k is sent by node k: it carries row k
    intro e' k h c
    have hsub : e'.val - 1000000 = k.val := by omega
    rw [refRows_apply, catIds_hi s e' (by omega), hsub, clampRow_self]

end Cert.Bridge

end
-- ==== Proof.DenseRef.lean ====
/-
  The reference's dense layer — a host matrix product, a broadcast bias, tanh (or nothing), and a broadcast row scale —
  is the dense layer of Spec.lean, index by index: the host product is the plain sum over the 64 contracted entries.
-/
import proofs.«416693_j5531917877789_3_alg».proof.Proof.Gen.ReferenceIdeal
import proofs.«416693_j5531917877789_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Cert.ReferenceIdeal Cert.ReferenceIdeal.Facts₀ Cert.ReferenceIdeal.Facts
open Idealize.ShloMosaic.ValueIdx

/-- Axis 0 of the left operand's index is the output row. -/
theorem lhs64_0 (r : Fin 100000) (j : Fin 64) (k : dot_S100000x64_S64x64_S100000x64_1_0_0_1_n_n.contr.Idx) :
    (dot_S100000x64_S64x64_S100000x64_1_0_0_1_n_n.lhsIdx (ix2 r j) k 0).val = r.val := by
  simp [DotDims.lhsIdx, dot_S100000x64_S64x64_S100000x64_1_0_0_1_n_n]; rfl

/-- Axis 1 of the left operand's index is the contracted coordinate. -/
theorem lhs64_1 (r : Fin 100000) (j : Fin 64) (k : dot_S100000x64_S64x64_S100000x64_1_0_0_1_n_n.contr.Idx) :
    (dot_S100000x64_S64x64_S100000x64_1_0_0_1_n_n.lhsIdx (ix2 r j) k 1).val = (k ⟨0, by decide⟩).val :=
  dot_S100000x64_S64x64_S100000x64_1_0_0_1_n_n.lhsIdx_val_of_single rfl (ix2 r j) k

/-- Axis 0 of the right operand's index is the contracted coordinate. -/
theorem rhs64_0 (r : Fin 100000) (j : Fin 64) (k : dot_S100000x64_S64x64_S100000x64_1_0_0_1_n_n.contr.Idx) :
    (dot_S100000x64_S64x64_S100000x64_1_0_0_1_n_n.rhsIdx (ix2 r j) k 0).val = (k ⟨0, by decide⟩).val :=
  dot_S100000x64_S64x64_S100000x64_1_0_0_1_n_n.rhsIdx_val_of_single rfl (ix2 r j) k

/-- Axis 1 of the right operand's index is the output column. -/
theorem rhs64_1 (r : Fin 100000) (j : Fin 64) (k : dot_S100000x64_S64x64_S100000x64_1_0_0_1_n_n.contr.Idx) :
    (dot_S100000x64_S64x64_S100000x64_1_0_0_1_n_n.rhsIdx (ix2 r j) k 1).val = j.val := by
  simp [DotDims.rhsIdx, dot_S100000x64_S64x64_S100000x64_1_0_0_1_n_n]; rfl

/-- The host product at row r, column j is the sum over the 64 contracted entries. -/
theorem dot64_apply (X : FVec Ideal S100000x64 .f32) (W : FVec Ideal S64x64 .f32) (r : Fin 100000) (j : Fin 64) :
    Host.dotGeneral dot_S100000x64_S64x64_S100000x64_1_0_0_1_n_n none X W (ix2 r j) = ∑ k : Fin 64, X (ix2 r k) * W (ix2 k j) := by
  show FloatOps.dotGeneral _ none _ X W (ix2 r j) = _
  rw [Ideal.dotGeneral_apply, ← Equiv.sum_comp (contrEquiv1 dot_S100000x64_S64x64_S100000x64_1_0_0_1_n_n 64 rfl rfl).symm]
  refine Finset.sum_congr rfl fun c _ => ?_
  have hk := contrEquiv1_symm_val dot_S100000x64_S64x64_S100000x64_1_0_0_1_n_n 64 rfl rfl c
  have hl : dot_S100000x64_S64x64_S100000x64_1_0_0_1_n_n.lhsIdx (ix2 r j) ((contrEquiv1 dot_S100000x64_S64x64_S100000x64_1_0_0_1_n_n 64 rfl rfl).symm c) = ix2 r c := by
    funext ax; apply Fin.ext
    match ax with
    | ⟨0, _⟩ => exact lhs64_0 _ _ _
    | ⟨1, _⟩ => exact (lhs64_1 _ _ _).trans hk
  have hr : dot_S100000x64_S64x64_S100000x64_1_0_0_1_n_n.rhsIdx (ix2 r j) ((contrEquiv1 dot_S100000x64_S64x64_S100000x64_1_0_0_1_n_n 64 rfl rfl).symm c) = ix2 c j := by
    funext ax; apply Fin.ext
    match ax with
    | ⟨0, _⟩ => exact (rhs64_0 _ _ _).trans hk
    | ⟨1, _⟩ => exact rhs64_1 _ _ _
  rw [hl, hr]

/-- Axis 0 of the left operand's index is the output row. -/
theorem lhs16_0 (r : Fin 100000) (j : Fin 16) (k : dot_S100000x64_S64x16_S100000x16_1_0_0_1_n_n.contr.Idx) :
    (dot_S100000x64_S64x16_S100000x16_1_0_0_1_n_n.lhsIdx (ix2 r j) k 0).val = r.val := by
  simp [DotDims.lhsIdx, dot_S100000x64_S64x16_S100000x16_1_0_0_1_n_n]; rfl

/-- Axis 1 of the left operand's index is the contracted coordinate. -/
theorem lhs16_1 (r : Fin 100000) (j : Fin 16) (k : dot_S100000x64_S64x16_S100000x16_1_0_0_1_n_n.contr.Idx) :
    (dot_S100000x64_S64x16_S100000x16_1_0_0_1_n_n.lhsIdx (ix2 r j) k 1).val = (k ⟨0, by decide⟩).val :=
  dot_S100000x64_S64x16_S100000x16_1_0_0_1_n_n.lhsIdx_val_of_single rfl (ix2 r j) k

/-- Axis 0 of the right operand's index is the contracted coordinate. -/
theorem rhs16_0 (r : Fin 100000) (j : Fin 16) (k : dot_S100000x64_S64x16_S100000x16_1_0_0_1_n_n.contr.Idx) :
    (dot_S100000x64_S64x16_S100000x16_1_0_0_1_n_n.rhsIdx (ix2 r j) k 0).val = (k ⟨0, by decide⟩).val :=
  dot_S100000x64_S64x16_S100000x16_1_0_0_1_n_n.rhsIdx_val_of_single rfl (ix2 r j) k

/-- Axis 1 of the right operand's index is the output column. -/
theorem rhs16_1 (r : Fin 100000) (j : Fin 16) (k : dot_S100000x64_S64x16_S100000x16_1_0_0_1_n_n.contr.Idx) :
    (dot_S100000x64_S64x16_S100000x16_1_0_0_1_n_n.rhsIdx (ix2 r j) k 1).val = j.val := by
  simp [DotDims.rhsIdx, dot_S100000x64_S64x16_S100000x16_1_0_0_1_n_n]; rfl

/-- The host product at row r, column j is the sum over the 64 contracted entries. -/
theorem dot16_apply (X : FVec Ideal S100000x64 .f32) (W : FVec Ideal S64x16 .f32) (r : Fin 100000) (j : Fin 16) :
    Host.dotGeneral dot_S100000x64_S64x16_S100000x16_1_0_0_1_n_n none X W (ix2 r j) = ∑ k : Fin 64, X (ix2 r k) * W (ix2 k j) := by
  show FloatOps.dotGeneral _ none _ X W (ix2 r j) = _
  rw [Ideal.dotGeneral_apply, ← Equiv.sum_comp (contrEquiv1 dot_S100000x64_S64x16_S100000x16_1_0_0_1_n_n 64 rfl rfl).symm]
  refine Finset.sum_congr rfl fun c _ => ?_
  have hk := contrEquiv1_symm_val dot_S100000x64_S64x16_S100000x16_1_0_0_1_n_n 64 rfl rfl c
  have hl : dot_S100000x64_S64x16_S100000x16_1_0_0_1_n_n.lhsIdx (ix2 r j) ((contrEquiv1 dot_S100000x64_S64x16_S100000x16_1_0_0_1_n_n 64 rfl rfl).symm c) = ix2 r c := by
    funext ax; apply Fin.ext
    match ax with
    | ⟨0, _⟩ => exact lhs16_0 _ _ _
    | ⟨1, _⟩ => exact (lhs16_1 _ _ _).trans hk
  have hr : dot_S100000x64_S64x16_S100000x16_1_0_0_1_n_n.rhsIdx (ix2 r j) ((contrEquiv1 dot_S100000x64_S64x16_S100000x16_1_0_0_1_n_n 64 rfl rfl).symm c) = ix2 c j := by
    funext ax; apply Fin.ext
    match ax with
    | ⟨0, _⟩ => exact (rhs16_0 _ _ _).trans hk
    | ⟨1, _⟩ => exact rhs16_1 _ _ _
  rw [hl, hr]

/-- The bias, laid as a [1, 64] row and then down the 100000 rows, reads at (r, j) the bias at j. -/
theorem bias64_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  rw [broadcastInDim_apply ![0, 1] bcast_S1x64_S100000x64_0_1 _ (ix2 r j) (ix2 (0 : Fin 1) j)
      (by intro a; match a with | ⟨0, _⟩ => rfl | ⟨1, _⟩ => rfl),
    broadcastInDim_apply ![1] bcast_S64_S1x64_1 b (ix2 (0 : Fin 1) j) (ix1 j)
      (by intro a; match a with | ⟨0, _⟩ => rfl)]

/-- A [100000, 1] column laid across the 64 columns reads at (r, j) the column at r. -/
theorem col64_apply (P : FVec Ideal S100000x1 .f32) (r : Fin 100000) (j : Fin 64) :
    broadcastInDim S100000x64 ![0, 1] bcast_S100000x1_S100000x64_0_1 P (ix2 r j) = P (ix2 r (0 : Fin 1)) :=
  broadcastInDim_apply ![0, 1] bcast_S100000x1_S100000x64_0_1 P (ix2 r j) (ix2 r (0 : Fin 1))
    (by intro a; match a with | ⟨0, _⟩ => rfl | ⟨1, _⟩ => rfl)

/-- The bias, laid as a [1, 16] row and then down the 100000 rows, reads at (r, j) the bias at j. -/
theorem bias16_apply (b : FVec Ideal S16 .f32) (r : Fin 100000) (j : Fin 16) :
    broadcastInDim S100000x16 ![0, 1] bcast_S1x16_S100000x16_0_1 (broadcastInDim S1x16 ![1] bcast_S16_S1x16_1 b) (ix2 r j)
      = b (ix1 j) := by
  rw [broadcastInDim_apply ![0, 1] bcast_S1x16_S100000x16_0_1 _ (ix2 r j) (ix2 (0 : Fin 1) j)
      (by intro a; match a with | ⟨0, _⟩ => rfl | ⟨1, _⟩ => rfl),
    broadcastInDim_apply ![1] bcast_S16_S1x16_1 b (ix2 (0 : Fin 1) j) (ix1 j)
      (by intro a; match a with | ⟨0, _⟩ => rfl)]

/-- A [100000, 1] column laid across the 16 columns reads at (r, j) the column at r. -/
theorem col16_apply (P : FVec Ideal S100000x1 .f32) (r : Fin 100000) (j : Fin 16) :
    broadcastInDim S100000x16 ![0, 1] bcast_S100000x1_S100000x16_0_1 P (ix2 r j) = P (ix2 r (0 : Fin 1)) :=
  broadcastInDim_apply ![0, 1] bcast_S100000x1_S100000x16_0_1 P (ix2 r j) (ix2 r (0 : Fin 1))
    (by intro a; match a with | ⟨0, _⟩ => rfl | ⟨1, _⟩ => rfl)

/-- The host's tanh at an index is the extended reals' tanh of the element. -/
theorem hostTanh_apply {s : Shape} (x : FVec Ideal s .f32) (i : s.Idx) : Host.tanh x i = Ideal.tanh (x i) := rfl

theorem dense_ref0 (X : FVec Ideal S100000x64 .f32) (W : FVec Ideal S64x64 .f32) (b : FVec Ideal S64 .f32) (P : FVec Ideal S100000x1 .f32) :
    mulf (Host.tanh (addf (Host.dotGeneral dot_S100000x64_S64x64_S100000x64_1_0_0_1_n_n none X W)
        (broadcastInDim S100000x64 ![0, 1] bcast_S1x64_S100000x64_0_1 (broadcastInDim S1x64 ![1] bcast_S64_S1x64_1 b))))
      (broadcastInDim S100000x64 ![0, 1] bcast_S100000x1_S100000x64_0_1 P)
    = GcnSpec.dense0 Ideal.tanh 64 X W b P := by
  funext i
  obtain ⟨r, j, rfl⟩ : ∃ (r : Fin 100000) (j : Fin 64), i = ix2 r j := ⟨i 0, i 1, eq_ix2 i⟩
  unfold GcnSpec.dense0
  rw [mulf_apply, hostTanh_apply, addf_apply, dot64_apply, bias64_apply, col64_apply]

theorem dense_ref1 (A : FVec Ideal S100000x64 .f32) (W : FVec Ideal S64x64 .f32) (b : FVec Ideal S64 .f32) (Q P : FVec Ideal S100000x1 .f32) :
    mulf (Host.tanh (addf (Host.dotGeneral dot_S100000x64_S64x64_S100000x64_1_0_0_1_n_n none
          (mulf A (broadcastInDim S100000x64 ![0, 1] bcast_S100000x1_S100000x64_0_1 Q)) W)
        (broadcastInDim S100000x64 ![0, 1] bcast_S1x64_S100000x64_0_1 (broadcastInDim S1x64 ![1] bcast_S64_S1x64_1 b))))
      (broadcastInDim S100000x64 ![0, 1] bcast_S100000x1_S100000x64_0_1 P)
    = GcnSpec.dense1 Ideal.tanh 64 A W b Q P := by
  funext i
  obtain ⟨r, j, rfl⟩ : ∃ (r : Fin 100000) (j : Fin 64), i = ix2 r j := ⟨i 0, i 1, eq_ix2 i⟩
  unfold GcnSpec.dense1
  rw [mulf_apply, hostTanh_apply, addf_apply, dot64_apply, bias64_apply, col64_apply]
  refine congrArg (fun t => Ideal.tanh (t + b (ix1 j)) * P (ix2 r (0 : Fin 1))) (Finset.sum_congr rfl fun k _ => ?_)
  rw [mulf_apply, col64_apply]

theorem dense_ref2 (A : FVec Ideal S100000x64 .f32) (W : FVec Ideal S64x16 .f32) (b : FVec Ideal S16 .f32) (Q P : FVec Ideal S100000x1 .f32) :
    mulf (addf (Host.dotGeneral dot_S100000x64_S64x16_S100000x16_1_0_0_1_n_n none
          (mulf A (broadcastInDim S100000x64 ![0, 1] bcast_S100000x1_S100000x64_0_1 Q)) W)
        (broadcastInDim S100000x16 ![0, 1] bcast_S1x16_S100000x16_0_1 (broadcastInDim S1x16 ![1] bcast_S16_S1x16_1 b)))
      (broadcastInDim S100000x16 ![0, 1] bcast_S100000x1_S100000x16_0_1 P)
    = GcnSpec.dense1 id 16 A W b Q P := by
  funext i
  obtain ⟨r, j, rfl⟩ : ∃ (r : Fin 100000) (j : Fin 16), i = ix2 r j := ⟨i 0, i 1, eq_ix2 i⟩
  unfold GcnSpec.dense1
  rw [mulf_apply, addf_apply, dot16_apply, bias16_apply, col16_apply]
  refine congrArg (fun t => (t + b (ix1 j)) * P (ix2 r (0 : Fin 1))) (Finset.sum_congr rfl fun k _ => ?_)
  rw [mulf_apply, col64_apply]

end Cert.Bridge

end
-- ==== Proof.RefEq.lean ====
/-
  The reference's result is the kernel program's value of the same nine arguments, when every sender id lies in [0, N).

  The reference's composed term is rewritten layer by layer: each degree count over the edge list with self edges
  appended is the plain count plus one; each dense layer (host product, bias, tanh, row scale) is the dense layer of
  Spec.lean; each aggregation over the appended list is the aggregation over the real edges plus the node's own row; the
  last aggregation, without self edges, differs from the kernel program's only in how an in-range row is read.  What is
  left is the kernel program's composition of the same pieces.
-/
import proofs.«416693_j5531917877789_3_alg».proof.Proof.Gen.ReferenceIdeal.Run
import proofs.«416693_j5531917877789_3_alg».proof.Proof.KTerms
import proofs.«416693_j5531917877789_3_alg».proof.Proof.SegmentLaws
import proofs.«416693_j5531917877789_3_alg».proof.Proof.SegmentSelf
import proofs.«416693_j5531917877789_3_alg».proof.Proof.DenseRef

set_option maxRecDepth 16384

noncomputable section

namespace Cert.Bridge

open Idealize.ShloMosaic Idealize.ShloMosaic.TcCoe Idealize.SL.Sem

theorem ref_eq (m' : (ℓ : Loc Cert.ReferenceIdeal.nD Cert.ReferenceIdeal.τ Cert.ReferenceIdeal.sig) → Buf (Elt Ideal) ℓ)
    (c : Dev Cert.ReferenceIdeal.nD)
    (hs : ∀ e : Cert.ReferenceIdeal.S1000000.Idx, 0 ≤ ((m' ((c.tc : Thread Cert.ReferenceIdeal.nD Cert.ReferenceIdeal.τ).loc Cert.ReferenceIdeal.main_arg1)) e).toInt ∧ ((m' ((c.tc : Thread Cert.ReferenceIdeal.nD Cert.ReferenceIdeal.τ).loc Cert.ReferenceIdeal.main_arg1)) e).toInt < 100000) :
    Cert.ReferenceIdeal.Value.res_main_v106 (F := Ideal) m' c
      = Cert.KernelIdeal.KV.kernelValue (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.Value.res_main_v106
  rw [deg_self (m' ((c.tc : Thread Cert.ReferenceIdeal.nD Cert.ReferenceIdeal.τ).loc Cert.ReferenceIdeal.main_arg1)), deg_self (m' ((c.tc : Thread Cert.ReferenceIdeal.nD Cert.ReferenceIdeal.τ).loc Cert.ReferenceIdeal.main_arg2)), deg_plain (m' ((c.tc : Thread Cert.ReferenceIdeal.nD Cert.ReferenceIdeal.τ).loc Cert.ReferenceIdeal.main_arg1)), deg_plain (m' ((c.tc : Thread Cert.ReferenceIdeal.nD Cert.ReferenceIdeal.τ).loc Cert.ReferenceIdeal.main_arg2))]
  rw [dense_ref2, dense_ref1, dense_ref0]
  rw [agg_self _ _ hs, agg_self _ _ hs, agg_plain _ _ hs]
  rfl

end Cert.Bridge

end
-- ==== Proof.Pre.lean ====
/-
  What the precondition says of the sender ids: every id, read as a signed word, lies in [0, 100000).
  The precondition is a conjunction of whole-array tests reduced by "and"; its last conjunct is the range test.
-/
import proofs.«416693_j5531917877789_3_alg».proof.Proof.Gen.Pre_finite_inputs
import Idealize.ShloMosaic.PureOps.Ideal
import Idealize.ShloMosaic.Lib.ReduceAll
import Idealize.ShloMosaic.Lib.StableHlo.Predicate

noncomputable section

namespace Cert.Bridge

open Idealize.ShloMosaic Cert.Pre_finite_inputs

/-- The scalar shape has one index. -/
instance subsingleton_scalar_idx : Subsingleton S_.Idx := ⟨fun a b => funext fun d => d.elim0⟩

/-- The last stage of the precondition: if it holds, every id passes both comparisons, 0 ≤ id and id < 100000, read signed. -/
theorem range_of_last_stage (a1 : IVec S1000000 32) (v33 : IVec S_ 1)
    (h : fn_part2 (F := Ideal) a1 v33 (fun a => a.elim0) = 1#1) (e : S1000000.Idx) :
    0 ≤ (a1 e).toInt ∧ (a1 e).toInt < 100000 := by
  dsimp only [fn_part2] at h
  have h39 := (IntOp.andi_eq_one.1 h).2
  have he := Host.reduce_andi_all _ _ _ _ _ h39 e
  obtain ⟨hge, hlt⟩ := IntOp.andi_eq_one.1 he
  have hge' : (0#32 : BitVec 32).toInt ≤ (a1 e).toInt := IntOp.cmpi_sge.1 hge
  have hlt' : (a1 e).toInt < (100000#32 : BitVec 32).toInt := IntOp.cmpi_slt.1 hlt
  have z : (0#32 : BitVec 32).toInt = 0 := by decide
  have c : (100000#32 : BitVec 32).toInt = 100000 := by decide
  rw [z] at hge'
  rw [c] at hlt'
  exact ⟨hge', hlt'⟩

theorem senders_in_range (a0 : FVec Ideal S100000x64 .f32) (a1 a2 : IVec S1000000 32) (a3 : FVec Ideal S64x64 .f32) (a4 : FVec Ideal S64 .f32)
    (a5 : FVec Ideal S64x64 .f32) (a6 : FVec Ideal S64 .f32) (a7 : FVec Ideal S64x16 .f32) (a8 : FVec Ideal S16 .f32)
    (h : Cert.Pre_finite_inputs.fn (F := Ideal) a0 a1 a2 a3 a4 a5 a6 a7 a8 = fun _ => 1#1) :
    ∀ e : S1000000.Idx, 0 ≤ (a1 e).toInt ∧ (a1 e).toInt < 100000 := by
  intro e
  have h0 := congrFun h (fun a => a.elim0)
  dsimp only [fn, fn_part1] at h0
  exact range_of_last_stage a1 _ h0 e

end Cert.Bridge

end
-- ==== Proof.lean ====
/-
  A three-layer graph convolution: each layer is a dense map of the node features (a 64-wide matrix product, a bias,
  tanh on the first two layers), a symmetric degree normalisation (the sender's 1 / sqrt deg before the messages are
  gathered, the receiver's after they are summed), and a sum of the messages over the edges into their receivers.

  The reference adds the self edges (n, n) to the edge list of the first two layers and scatter-adds over the longer
  list; the kernel program keeps the million real edges, counts degrees as the plain count plus one, adds each node's
  own message after the scatter-add, and folds a layer's receiver normalisation into the next layer's input rows.  Over
  the extended reals the two agree index by index: a sum over the appended list is the sum over the real edges plus the
  one self edge that lands on the node (addition is commutative and associative there, no finiteness is used); the
  kernel's three pallas_calls compute the dense layers blockwise, 5000 rows at a time, which tile the 100000 rows; a
  change of float format is the identity and a matrix-unit product into a zero accumulator is the host's contraction.

  The two programs read a sender's row differently when its id is out of range (the reference clamps, the kernel
  program fills with a not-a-number pattern), so the precondition asks every sender id to lie in [0, 100000): the
  reference itself indexes out of range otherwise.  Receiver ids are unconstrained: both programs drop an update whose
  receiver is out of range.
-/
import proofs.«416693_j5531917877789_3_alg».proof.Defs
import proofs.«416693_j5531917877789_3_alg».proof.Proof.Gen.Kernel
import proofs.«416693_j5531917877789_3_alg».proof.Proof.Gen.Kernel.Skeleton
import proofs.«416693_j5531917877789_3_alg».proof.Proof.Gen.Kernel.Launch
import proofs.«416693_j5531917877789_3_alg».proof.Proof.Gen.Kernel.Points
import proofs.«416693_j5531917877789_3_alg».proof.Proof.Gen.Kernel.Frame
import proofs.«416693_j5531917877789_3_alg».proof.Proof.Gen.KernelIdeal
import proofs.«416693_j5531917877789_3_alg».proof.Proof.Gen.KernelIdeal.Skeleton
import proofs.«416693_j5531917877789_3_alg».proof.Proof.Gen.KernelIdeal.Launch
import proofs.«416693_j5531917877789_3_alg».proof.Proof.Gen.KernelIdeal.Points
import proofs.«416693_j5531917877789_3_alg».proof.Proof.Gen.KernelIdeal.Frame
import proofs.«416693_j5531917877789_3_alg».proof.Proof.Gen.ReferenceIdeal
import proofs.«416693_j5531917877789_3_alg».proof.Proof.Gen.Pre_finite_inputs
import proofs.«416693_j5531917877789_3_alg».proof.Proof.Gen.ReferenceIdeal.Run
import proofs.«416693_j5531917877789_3_alg».proof.Proof.KRun
import proofs.«416693_j5531917877789_3_alg».proof.Proof.KChain
import proofs.«416693_j5531917877789_3_alg».proof.Proof.RefEq
import proofs.«416693_j5531917877789_3_alg».proof.Proof.Pre
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the kernel program's value of the arguments: the kernel program by its segments' fold, the
    reference by the layer-by-layer rewriting, the sender ids in range by the precondition. -/
theorem algebraic : Cert.algebraic_KernelIdeal_ReferenceIdeal := by
  intro m ρ m' ρ' hpre hagree
  refine ⟨fun c => Cert.KernelIdeal.KV.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KChain.value m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.Value.run (F := Ideal) m' ρ')
    have hs := Cert.Bridge.senders_in_range _ _ _ _ _ _ _ _ _ (hpre c)
    obtain ⟨e0, e1, e2, e3, e4, e5, e6, e7, e8⟩ := hagree c
    refine (Cert.Bridge.ref_eq m' c (by rw [e1]; exact hs)).trans ?_
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
